-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_v33 : IVec S_ 1) : IVec S_ 1 :=
  let main_c_12 : IVec S_ 32 := constantI S_ 32 0#32
  let main_v34 : IVec S1600000 32 := broadcastInDim S1600000 ![] bcast_S_S1600000 main_c_12
  let main_v35 : IVec S1600000 1 := cmpi .sge main_arg1 main_v34
  let main_c_13 : IVec S_ 1 := constantI S_ 1 1#1
  let main_v36 : IVec S_ 1 := (fun x v => Host.reduce IntOp.andi x v reducesTo_S1600000_S_d0 h_S_) main_v35 main_c_13
  let main_v37 : IVec S_ 1 := andi main_v33 main_v36
  let main_c_14 : IVec S_ 32 := constantI S_ 32 100000#32
  let main_v38 : IVec S1600000 32 := broadcastInDim S1600000 ![] bcast_S_S1600000 main_c_14
  let main_v39 : IVec S1600000 1 := cmpi .slt main_arg1 main_v38
  let main_c_15 : IVec S_ 1 := constantI S_ 1 1#1
  let main_v40 : IVec S_ 1 := (fun x v => Host.reduce IntOp.andi x v reducesTo_S1600000_S_d0 h_S_) main_v39 main_c_15
  let main_v41 : IVec S_ 1 := andi main_v37 main_v40
  main_v41

def fn_part1 {F : FTy → Type} [FloatOps F] (main_arg1 : IVec S1600000 32) (main_arg7 : FVec F S64 .f32) (main_arg8 : FVec F S64x8 .f32) (main_arg9 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x8 .f32 := Host.absf main_arg8
  let main_cst_8 : FVec F S_ .f32 := constant S_ .f32 0x7F800000#32
  let main_v25 : FVec F S64x8 .f32 := broadcastInDim S64x8 ![] bcast_S_S64x8 main_cst_8
  let main_v26 : IVec S64x8 1 := cmpf .olt main_v24 main_v25
  let main_c_9 : IVec S_ 1 := constantI S_ 1 1#1
  let main_v27 : IVec S_ 1 := (fun x v => Host.reduce IntOp.andi x v reducesTo_S64x8_S_d0_1 h_S_) main_v26 main_c_9
  let main_v28 : IVec S_ 1 := andi main_v23 main_v27
  let main_v29 : FVec F S8 .f32 := Host.absf main_arg9
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S1600000 32) (main_arg2 : IVec S1600000 32) (main_arg3 : IVec S1600000 32) (main_arg4 : FVec F S128x64 .f32) (main_arg5 : FVec F S64 .f32) (main_arg6 : FVec F S64x64 .f32) (main_arg7 : FVec F S64 .f32) (main_arg8 : FVec F S64x8 .f32) (main_arg9 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg4
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg7 main_arg8 main_arg9 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S1x8 : Shape := ⟨2, ![1, 8]⟩
abbrev S100000x8 : Shape := ⟨2, ![100000, 8]⟩
abbrev S5000x8 : Shape := ⟨2, ![5000, 8]⟩
abbrev S5000 : Shape := ⟨1, ![5000]⟩

abbrev nBuf : Space → Nat
  | .hbm => 96
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x8, .f32⟩
  | .hbm, ⟨9, _⟩ => ⟨S8, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x1, .f32⟩
  | .hbm, ⟨34, _⟩ => ⟨S100000x64, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1, .i32⟩
  | .hbm, ⟨44, _⟩ => ⟨S_, .i32⟩
  | .hbm, ⟨45, _⟩ => ⟨S1600000x1, .i32⟩
  | .hbm, ⟨46, _⟩ => ⟨S1600000x1, .i1⟩
  | .hbm, ⟨47, _⟩ => ⟨S1x1, .i32⟩
  | .hbm, ⟨48, _⟩ => ⟨S1600000x1, .i32⟩
  | .hbm, ⟨49, _⟩ => ⟨S1600000x1, .i1⟩
  | .hbm, ⟨50, _⟩ => ⟨S1600000x1, .i1⟩
  | .hbm, ⟨51, _⟩ => ⟨S_, .i1⟩
  | .hbm, ⟨52, _⟩ => ⟨S1600000, .i1⟩
  | .hbm, ⟨53, _⟩ => ⟨S1600000x64, .f32⟩
  | .hbm, ⟨54, _⟩ => ⟨S1600000x64, .i1⟩
  | .hbm, ⟨55, _⟩ => ⟨S_, .f32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1, .i32⟩
  | .hbm, ⟨74, _⟩ => ⟨S_, .i32⟩
  | .hbm, ⟨75, _⟩ => ⟨S1600000x1, .i32⟩
  | .hbm, ⟨76, _⟩ => ⟨S1600000x1, .i1⟩
  | .hbm, ⟨77, _⟩ => ⟨S1x1, .i32⟩
  | .hbm, ⟨78, _⟩ => ⟨S1600000x1, .i32⟩
  | .hbm, ⟨79, _⟩ => ⟨S1600000x1, .i1⟩
  | .hbm, ⟨80, _⟩ => ⟨S1600000x1, .i1⟩
  | .hbm, ⟨81, _⟩ => ⟨S_, .i1⟩
  | .hbm, ⟨82, _⟩ => ⟨S1600000, .i1⟩
  | .hbm, ⟨83, _⟩ => ⟨S1600000x64, .f32⟩
  | .hbm, ⟨84, _⟩ => ⟨S1600000x64, .i1⟩
  | .hbm, ⟨85, _⟩ => ⟨S_, .f32⟩
  | .hbm, ⟨86, _⟩ => ⟨S1600000x64, .f32⟩
  | .hbm, ⟨87, _⟩ => ⟨S1600000x64, .f32⟩
  | .hbm, ⟨88, _⟩ => ⟨S_, .f32⟩
  | .hbm, ⟨89, _⟩ => ⟨S100000x64, .f32⟩
  | .hbm, ⟨90, _⟩ => ⟨S1600000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S1x8, .f32⟩
  | .hbm, ⟨95, _⟩ => ⟨S100000x8, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x1, .f32⟩
  | .local _ .vmem, ⟨17, _⟩ => ⟨S5000x1, .f32⟩
  | .local _ .vmem, ⟨18, _⟩ => ⟨S64x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x8, .f32⟩
  | .local _ .vmem, ⟨31, _⟩ => ⟨S1x8, .f32⟩
  | .local _ .vmem, ⟨32, _⟩ => ⟨S5000x8, .f32⟩
  | .local _ .vmem, ⟨33, _⟩ => ⟨S5000x8, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v18 : Ref sig .tc := ⟨.hbm, 57, rfl⟩
abbrev main_cst_6 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_call1_c : Ref sig .tc := ⟨.hbm, 65, rfl⟩
abbrev main_call1_v0 : Ref sig .tc := ⟨.hbm, 66, rfl⟩
abbrev main_call1_v1 : Ref sig .tc := ⟨.hbm, 67, rfl⟩
abbrev main_call1_c_0 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_c_1 : Ref sig .tc := ⟨.hbm, 73, rfl⟩
abbrev main_call1_c_2 : Ref sig .tc := ⟨.hbm, 74, rfl⟩
abbrev main_call1_v6 : Ref sig .tc := ⟨.hbm, 75, rfl⟩
abbrev main_call1_v7 : Ref sig .tc := ⟨.hbm, 76, rfl⟩
abbrev main_call1_v8 : Ref sig .tc := ⟨.hbm, 77, rfl⟩
abbrev main_call1_v9 : Ref sig .tc := ⟨.hbm, 78, rfl⟩
abbrev main_call1_v10 : Ref sig .tc := ⟨.hbm, 79, rfl⟩
abbrev main_call1_v11 : Ref sig .tc := ⟨.hbm, 80, rfl⟩
abbrev main_call1_c_3 : Ref sig .tc := ⟨.hbm, 81, rfl⟩
abbrev main_call1_v12 : Ref sig .tc := ⟨.hbm, 82, rfl⟩
abbrev main_call1_v13 : Ref sig .tc := ⟨.hbm, 83, rfl⟩
abbrev main_call1_v14 : Ref sig .tc := ⟨.hbm, 84, rfl⟩
abbrev main_call1_cst : Ref sig .tc := ⟨.hbm, 85, rfl⟩
abbrev main_call1_v15 : Ref sig .tc := ⟨.hbm, 86, rfl⟩
abbrev main_v25 : Ref sig .tc := ⟨.hbm, 87, rfl⟩
abbrev main_cst_7 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x8 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x8 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x8 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  shapeCasts_S8_S1x8 : S8.ShapeCasts S1x8
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  reduces_S5000x8_S5000 : S5000x8.Reduces [1] S5000
  shapeCasts_S5000_S5000x1 : S5000.ShapeCasts S5000x1
  broadcasts_S5000x1_S5000x8 : S5000x1.Broadcasts S5000x8
  inb_S5000x8_S5000x8_0_0 : ∀ a, (![0, 0] : Fin 2 → Nat) a + S5000x8.size a ≤ S5000x8.size a
  h_S5000x8 : 0 < S5000x8.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  dot_S5000x64_S64x8_S5000x8_1_0_0_1_n_n_wf : DotDims.WF S5000x64 S64x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x8.size a ≤ S64x8.size a
  hwx4_1 : ∀ i : grid4.Coords, EltTy.bits .f32 = 32 ∨ (Rect.block (s := S64x8) S64x8.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x8.size a ≤ S1x8.size a
  hwx4_2 : ∀ i : grid4.Coords, EltTy.bits .f32 = 32 ∨ (Rect.block (s := S1x8) S1x8.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x8.size a ≤ S100000x8.size a
  hwx4_3 : ∀ i : grid4.Coords, EltTy.bits .f32 = 32 ∨ (Rect.block (s := S100000x8) S5000x8.size (cc4_transform_3 i) (hinb4_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v21) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v23) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v28) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v30) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v30) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x8.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v31) S1x8.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v32) S5000x8.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x64 : Shape := ⟨2, ![64, 64]⟩
abbrev S64x8 : Shape := ⟨2, ![64, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩
abbrev S100000x8 : Shape := ⟨2, ![100000, 8]⟩
abbrev S1x8 : Shape := ⟨2, ![1, 8]⟩

abbrev nBuf : Space → Nat
  | .hbm => 102
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x8, .f32⟩
  | .hbm, ⟨9, _⟩ => ⟨S8, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .f32⟩
  | .hbm, ⟨34, _⟩ => ⟨S100000x128, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S100000x64, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x64, .f32⟩
  | .hbm, ⟨71, _⟩ => ⟨S_, .f32⟩
  | .hbm, ⟨72, _⟩ => ⟨S100000x64, .f32⟩
  | .hbm, ⟨73, _⟩ => ⟨S1600000x1, .i32⟩
  | .hbm, ⟨74, _⟩ => ⟨S100000x64, .f32⟩
  | .hbm, ⟨75, _⟩ => ⟨S100000x1, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S100000x8, .f32⟩
  | .hbm, ⟨85, _⟩ => ⟨S1x8, .f32⟩
  | .hbm, ⟨86, _⟩ => ⟨S100000x8, .f32⟩
  | .hbm, ⟨87, _⟩ => ⟨S100000x8, .f32⟩
  | .hbm, ⟨88, _⟩ => ⟨S_, .f32⟩
  | .hbm, ⟨89, _⟩ => ⟨S100000, .f32⟩
  | .hbm, ⟨90, _⟩ => ⟨S_, .f32⟩
  | .hbm, ⟨91, _⟩ => ⟨S100000, .f32⟩
  | .hbm, ⟨92, _⟩ => ⟨S100000, .f32⟩
  | .hbm, ⟨93, _⟩ => ⟨S100000x1, .f32⟩
  | .hbm, ⟨94, _⟩ => ⟨S100000x8, .f32⟩
  | .hbm, ⟨95, _⟩ => ⟨S100000x8, .f32⟩
  | .hbm, ⟨96, _⟩ => ⟨S100000x8, .f32⟩
  | .hbm, ⟨97, _⟩ => ⟨S_, .f32⟩
  | .hbm, ⟨98, _⟩ => ⟨S100000, .f32⟩
  | .hbm, ⟨99, _⟩ => ⟨S100000x1, .f32⟩
  | .hbm, ⟨100, _⟩ => ⟨S100000x8, .f32⟩
  | .hbm, ⟨101, _⟩ => ⟨S100000x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_cst_4 : Ref sig .tc := ⟨.hbm, 26, rfl⟩
abbrev main_v11 : Ref sig .tc := ⟨.hbm, 27, rfl⟩
abbrev main_v12 : Ref sig .tc := ⟨.hbm, 28, rfl⟩
abbrev main_cst_5 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_7 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call0_cst : Ref sig .tc := ⟨.hbm, 55, rfl⟩
abbrev main_call0_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_c_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call1_cst : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_13 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  reducesTo_S100000x8_S100000_d1 : S100000x8.ReducesTo [1] S100000
  h_S_ : 0 < S_.numel
  bcast_S100000x1_S100000x8_0_1 : S100000x1.BroadcastsInDim S100000x8 (![0, 1] : Fin 2 → Fin S100000x8.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x8_S100000x8_1_0_0_1_n_n_wf : DotDims.WF S100000x64 S64x8 S100000x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf

class Facts : Prop extends Facts₀ where

variable [Facts]
-- ==== Proof.Spec.lean ====
/-
  What each dense stage of the two-layer graph convolution computes, as one function of whole arrays over the
  extended reals, index by index. N = 100000 nodes; features 128 → 64 → 64 → 8.

  * a scaled product: row r of X is multiplied by the node's scale n[r] and then by the weight matrix,
    (X ⊙ n) · W, entry (r, q) = Σ_k (X[r,k] · n[r]) · W[k,q];
  * a scaled, biased rectifier: entry (r, q) = max (A[r,q] · n[r] + b[q]) 0;
  * the head: logits L = X · W + b, then the softmax of each row of 8 logits in its shifted form:
    the row maximum M[r] (a fold of max from −∞, then once more against −∞), the shifted exponentials
    E[r,q] = exp (L[r,q] − M[r]), and E[r,q] / Σ_k E[r,k].
-/
import Idealize.ShloMosaic.PureOps.Ideal.Laws
import Idealize.ShloMosaic.Lib.ValueIdx

noncomputable section

namespace Cert.Spec

open Idealize.ShloMosaic Idealize.ShloMosaic.ValueIdx

abbrev SN128 : Shape := ⟨2, ![100000, 128]⟩
abbrev SN64 : Shape := ⟨2, ![100000, 64]⟩
abbrev SN8 : Shape := ⟨2, ![100000, 8]⟩
abbrev SN1 : Shape := ⟨2, ![100000, 1]⟩
abbrev SW1 : Shape := ⟨2, ![128, 64]⟩
abbrev SW2 : Shape := ⟨2, ![64, 64]⟩
abbrev SWp : Shape := ⟨2, ![64, 8]⟩
abbrev SB64 : Shape := ⟨2, ![1, 64]⟩
abbrev SB8 : Shape := ⟨2, ![1, 8]⟩

/-- The node (row) of an index of an N × C array. -/
abbrev rowOf {C : Nat} (i : (⟨2, ![100000, C]⟩ : Shape).Idx) : Fin 100000 := ⟨(i 0).val, (i 0).isLt⟩
/-- The column of an index of an N × C array. -/
abbrev colOf {C : Nat} (i : (⟨2, ![100000, C]⟩ : Shape).Idx) : Fin C := ⟨(i 1).val, (i 1).isLt⟩

/-- (X ⊙ n) · W for X of 128 columns. -/
def scaleMatmul128 (X : FVec Ideal SN128 .f32) (n : FVec Ideal SN1 .f32) (W : FVec Ideal SW1 .f32) : FVec Ideal SN64 .f32 :=
  fun i => ∑ k : Fin 128, (X (ix2 (rowOf i) k) * n (ix2 (rowOf i) (0 : Fin 1))) * W (ix2 k (colOf i))

/-- (X ⊙ n) · W for X of 64 columns. -/
def scaleMatmul64 (X : FVec Ideal SN64 .f32) (n : FVec Ideal SN1 .f32) (W : FVec Ideal SW2 .f32) : FVec Ideal SN64 .f32 :=
  fun i => ∑ k : Fin 64, (X (ix2 (rowOf i) k) * n (ix2 (rowOf i) (0 : Fin 1))) * W (ix2 k (colOf i))

/-- max (A ⊙ n + b) 0, the bias a row vector. -/
def scaleBiasRelu (A : FVec Ideal SN64 .f32) (n : FVec Ideal SN1 .f32) (b : FVec Ideal SB64 .f32) : FVec Ideal SN64 .f32 :=
  fun i => max (A i * n (ix2 (rowOf i) (0 : Fin 1)) + b (ix2 (0 : Fin 1) (colOf i))) (Ideal.ofBits .f32 0x00000000#32)

/-- The head's logits X · W + b. -/
def logits (X : FVec Ideal SN64 .f32) (W : FVec Ideal SWp .f32) (b : FVec Ideal SB8 .f32) : FVec Ideal SN8 .f32 :=
  fun i => (∑ k : Fin 64, X (ix2 (rowOf i) k) * W (ix2 k (colOf i))) + b (ix2 (0 : Fin 1) (colOf i))

/-- A row's maximum: the fold of max from −∞ over the 8 logits, then max with −∞ once more (which changes nothing). -/
def rowMax (L : FVec Ideal SN8 .f32) (r : Fin 100000) : Ideal .f32 :=
  max (Ideal.ofBits .f32 0xFF800000#32)
    ((Finset.univ : Finset (Fin 8)).fold max (Ideal.ofBits .f32 0xFF800000#32) (fun k => L (ix2 r k)))

/-- exp (L − row maximum). -/
def shiftedExp (L : FVec Ideal SN8 .f32) : FVec Ideal SN8 .f32 :=
  fun i => Ideal.exp (L i - rowMax L (rowOf i))

/-- The softmax of each row. -/
def softmaxRows (L : FVec Ideal SN8 .f32) : FVec Ideal SN8 .f32 :=
  fun i => Ideal.div (shiftedExp L i) (∑ k : Fin 8, shiftedExp L (ix2 (rowOf i) k))

/-- The head: softmax of the rows of X · W + b. -/
def linearSoftmax (X : FVec Ideal SN64 .f32) (W : FVec Ideal SWp .f32) (b : FVec Ideal SB8 .f32) : FVec Ideal SN8 .f32 :=
  softmaxRows (logits X W b)

end Cert.Spec

end
-- ==== Proof.Reg0.lean ====
/-
  The first scaled product of the graph convolution, as one function of whole arrays: after the region the output
  array holds (X ⊙ n) · W, entry (r, q) = Σ_k (X[r,k] · n[r]) · W[k,q], of the three input arrays as the region
  found them. The 100000 rows are cut into 20 blocks of 5000; at grid point t the body reads row block t of X and
  of the scale column n and the whole weight W, and stores row block t of the product. First the body's stored
  block at an entry (the contraction as a sum over k, the scale column spread along each row), then each input
  block read where the output's rectangle says, then the cover of the rows by the blocks (row r is in block r / 5000).
-/
import proofs.«417617_j45045617001060_1_alg».proof.Proof.Gen.KernelIdeal.Frame
import proofs.«417617_j45045617001060_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

namespace Region0

/-! ## The product of a 5000 × 128 block with the 128 × 64 weight, at an index

The operand indices of the contraction at output index (p, q) and contraction index k are (p, k) and (k, q). -/

theorem lhs_axis0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_axis1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_axis0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_axis1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The product with a zero accumulator, at (p, q): the sum over k of lhs (p, k) · rhs (k, q). -/
theorem matmul_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## A column broadcast along the rows' entries -/

/-- An [a, 1] column broadcast to [a, b] reads, at (p, c), the column's entry at row p. -/
theorem broadcast_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's payload at an index -/

/-- Entry (p, q) of what the body stores: Σ_k (x0[p,k] · x1[p,0]) · x2[k,q]. -/
theorem pay_apply (x0 : FVec Ideal S5000x128 .f32) (x1 : FVec Ideal S5000x1 .f32) (x2 : FVec Ideal S128x64 .f32) (p : Fin 5000) (q : Fin 64) :
    k0_pay1 (F := Ideal) x0 x1 x2 (ix2 p q) = ∑ k : Fin 128, (x0 (ix2 p k) * x1 (ix2 p (0 : Fin 1))) * x2 (ix2 k q) := by
  unfold k0_pay1
  refine (matmul_apply _ _ p q).trans ?_
  refine Finset.sum_congr rfl fun k _ => ?_
  rw [truncf_apply, truncf_apply, mulf_apply, broadcast_col_apply, shapeCast_self]

/-! ## From the blocks to the array -/

theorem hz : (![0, 0] : Fin 2 → Nat) = fun _ => 0 := funext fun a => by fin_cases a <;> rfl

/-- The index maps over the grid: at point t the row block of X, of the scale column and of the output is t; the
    weight's block is the whole weight; every column block is 0. -/
theorem idx_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The stored block agrees with the whole-array function at an index i of the array, once each input block's
    entries are the arrays' entries at i's row and column. -/
theorem pay_eq_spec (X : FVec Ideal Cert.Spec.SN128 .f32) (n : FVec Ideal Cert.Spec.SN1 .f32) (W : FVec Ideal Cert.Spec.SW1 .f32)
    (x0 : FVec Ideal S5000x128 .f32) (x1 : FVec Ideal S5000x1 .f32) (x2 : FVec Ideal S128x64 .f32)
    (j : S5000x64.Idx) (p : Fin 5000) (q : Fin 64) (hj : j = ix2 p q) (i : Cert.Spec.SN64.Idx)
    (h0 : ∀ k : Fin 128, x0 (ix2 p k) = X (ix2 (Cert.Spec.rowOf i) k))
    (h1 : x1 (ix2 p (0 : Fin 1)) = n (ix2 (Cert.Spec.rowOf i) (0 : Fin 1)))
    (h2 : ∀ k : Fin 128, x2 (ix2 k q) = W (ix2 k (Cert.Spec.colOf i))) :
    k0_pay1 (F := Ideal) x0 x1 x2 j = Cert.Spec.scaleMatmul128 X n W i := by
  subst hj
  rw [pay_apply]
  unfold Cert.Spec.scaleMatmul128
  refine Finset.sum_congr rfl fun k _ => ?_
  rw [h0 k, h1, h2 k]

/-- What point t writes back is block t of the whole-array function of the three arrays as the region found them. -/
theorem flushed_eq (c : Dev nD) (t : Fin cfg0.N) :
    (dat0 V c).flushed 3 t = ((cfg0.win 3).blk t).view.read (Elt Ideal)
      (Cert.Spec.scaleMatmul128 (V c main_arg0) (V c main_v15) (V c main_arg4)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x64) hz]
  obtain ⟨e0, e1, e2, e3, e4, e5, e6, e7⟩ := idx_facts t
  funext j
  show k0_pay1 (F := Ideal) (iblk0 V c 0 t) (iblk0 V c 1 t) (iblk0 V c 2 t) j
    = Cert.Spec.scaleMatmul128 (V c main_arg0) (V c main_v15) (V c main_arg4) (((cfg0.win 3).blk t).view.emb j)
  have hj0 : (j 0).val < 5000 := (j 0).isLt
  have hj1 : (j 1).val < 64 := (j 1).isLt
  refine pay_eq_spec (V c main_arg0) (V c main_v15) (V c main_arg4) (iblk0 V c 0 t) (iblk0 V c 1 t) (iblk0 V c 2 t) j
    ⟨(j 0).val, hj0⟩ ⟨(j 1).val, hj1⟩ (funext fun a => by match a with | ⟨0, _⟩ => rfl | ⟨1, _⟩ => rfl)
    (((cfg0.win 3).blk t).view.emb j) (fun k => ?_) ?_ (fun k => ?_)
  · show V c main_arg0 (((cfg0.win 0).blk t).view.emb (ix2 (⟨(j 0).val, hj0⟩ : Fin 5000) k)) = V c main_arg0 _
    refine congrArg (V c main_arg0) (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · show V c main_v15 (((cfg0.win 1).blk t).view.emb (ix2 (⟨(j 0).val, hj0⟩ : Fin 5000) (0 : Fin 1))) = V c main_v15 _
    refine congrArg (V c main_v15) (funext fun a => Fin.ext ?_)
    match a with
    | ⟨0, _⟩ => show win0_1.index t (0 : Fin 2) * 5000 + 1 * (j 0).val = win0_3.index t (0 : Fin 2) * 5000 + 1 * (j 0).val; omega
    | ⟨1, _⟩ => show win0_1.index t (1 : Fin 2) * 1 + 1 * 0 = 0; omega
  · show V c main_arg4 (((cfg0.win 2).blk t).view.emb (ix2 k (⟨(j 1).val, hj1⟩ : Fin 64))) = V c main_arg4 _
    refine congrArg (V c main_arg4) (funext fun a => Fin.ext ?_)
    match a with
    | ⟨0, _⟩ => show win0_2.index t (0 : Fin 2) * 128 + 1 * k.val = k.val; omega
    | ⟨1, _⟩ => show win0_2.index t (1 : Fin 2) * 64 + 1 * (j 1).val = win0_3.index t (1 : Fin 2) * 64 + 1 * (j 1).val; omega

/-- An index of the output array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v17).slice (win0_3.rect t)).set ↔ _
  rw [View.set_slice_whole, Rect.mem_set_unit]
  exact Iff.rfl

/-- Every index of the output array is in some point's block: row r is in block r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  have ht : (i 0).val / 5000 < cfg0.N := by rw [hN]; omega
  obtain ⟨-, -, -, -, -, -, e6, e7⟩ := idx_facts ⟨(i 0).val / 5000, ht⟩
  have e6' : win0_3.index ⟨(i 0).val / 5000, ht⟩ (0 : Fin 2) = (i 0).val / 5000 := e6
  refine ⟨⟨(i 0).val / 5000, ht⟩, flush0_3 _, ?_⟩
  rw [mem_blk]
  intro a
  match a with
  | ⟨0, _⟩ => show win0_3.index ⟨(i 0).val / 5000, ht⟩ (0 : Fin 2) * 5000 ≤ (i 0).val ∧ (i 0).val < win0_3.index ⟨(i 0).val / 5000, ht⟩ (0 : Fin 2) * 5000 + 5000; omega
  | ⟨1, _⟩ => show win0_3.index ⟨(i 0).val / 5000, ht⟩ (1 : Fin 2) * 64 ≤ (i 1).val ∧ (i 1).val < win0_3.index ⟨(i 0).val / 5000, ht⟩ (1 : Fin 2) * 64 + 64; omega

end Region0

theorem reg0_val (c : Dev nD) :
    (dat0 V c).arrAt 3 cfg0.N = Cert.Spec.scaleMatmul128 (V c main_arg0) (V c main_v15) (V c main_arg4) :=
  (dat0 V c).arrAt_eq_of_cover 3 (Cert.Spec.scaleMatmul128 (V c main_arg0) (V c main_v15) (V c main_arg4))
    (fun t _ => Region0.flushed_eq V c t) Region0.cover

end Cert.KernelIdeal.RegVal

end
-- ==== Proof.Reg1.lean ====
import proofs.«417617_j45045617001060_1_alg».proof.Proof.Gen.KernelIdeal.Frame
import proofs.«417617_j45045617001060_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole block, as a constant function. -/
theorem zeroOff1 : (![0, 0] : Fin 2 → Nat) = fun _ => 0 := funext fun a => by fin_cases a <;> rfl

/-- The body's value at row p, column q of the block: the entry times the row's scale plus the column's bias,
    cut below at zero. -/
theorem pay1_apply (x0 : FVec Ideal S5000x64 .f32) (x1 : FVec Ideal S5000x1 .f32) (x2 : FVec Ideal S1x64 .f32)
    (p : Fin 5000) (q : Fin 64) :
    k1_pay1 (F := Ideal) x0 x1 x2 (ix2 p q)
      = max (x0 (ix2 p q) * x1 (ix2 p (0 : Fin 1)) + x2 (ix2 (0 : Fin 1) q)) (Ideal.ofBits .f32 0x00000000#32) := by
  unfold k1_pay1
  simp only [shapeCast_self]
  have e1 : broadcastTo S5000x64 x1 broadcasts_S5000x1_S5000x64 (ix2 p q) = x1 (ix2 p (0 : Fin 1)) :=
    broadcastTo_apply x1 broadcasts_S5000x1_S5000x64 (ix2 p q) (ix2 p (0 : Fin 1))
      (fun a => by match a with | ⟨0, _⟩ => rfl | ⟨1, _⟩ => rfl)
  have e2 : broadcastTo S5000x64 x2 broadcasts_S1x64_S5000x64 (ix2 p q) = x2 (ix2 (0 : Fin 1) q) :=
    broadcastTo_apply x2 broadcasts_S1x64_S5000x64 (ix2 p q) (ix2 (0 : Fin 1) q)
      (fun a => by match a with | ⟨0, _⟩ => rfl | ⟨1, _⟩ => rfl)
  rw [maximumf_apply, addf_apply, mulf_apply, e1, e2, broadcast_apply]
  rfl

/-- The arrays the region finds, at their literal shapes. -/
abbrev arrA1 (c : Dev nD) : FVec Ideal S100000x64 .f32 := V c main_v21
abbrev arrN1 (c : Dev nD) : FVec Ideal S100000x1 .f32 := V c main_v16
abbrev arrB1 (c : Dev nD) : FVec Ideal S1x64 .f32 := V c main_v22

/-- The blocks of the three inputs at a grid point, at their literal shapes. -/
abbrev blkA1 (c : Dev nD) (t : Fin cfg1.N) : FVec Ideal S5000x64 .f32 := iblk1 V c 0 t
abbrev blkN1 (c : Dev nD) (t : Fin cfg1.N) : FVec Ideal S5000x1 .f32 := iblk1 V c 1 t
abbrev blkB1 (c : Dev nD) (t : Fin cfg1.N) : FVec Ideal S1x64 .f32 := iblk1 V c 2 t

/-- The block index maps over the grid: the entry array's, the scale's and the output's block is the grid point's
    on the rows and the first on the columns; the bias has one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The whole-array function at row r, column k. -/
theorem relu1_apply (A : FVec Ideal S100000x64 .f32) (n : FVec Ideal S100000x1 .f32) (b : FVec Ideal S1x64 .f32)
    (r : Fin 100000) (k : Fin 64) :
    Cert.Spec.scaleBiasRelu A n b (ix2 r k)
      = max (A (ix2 r k) * n (ix2 r (0 : Fin 1)) + b (ix2 (0 : Fin 1) k)) (Ideal.ofBits .f32 0x00000000#32) := rfl

/-- What grid point t writes back is block t of the whole-array function of the three arrays as the region finds
    them: row p of the block is row 5000 t + p of the entry array and of the scale, and the bias has one block. -/
theorem flushed1_eq (c : Dev nD) (t : Fin cfg1.N) :
    (dat1 V c).flushed 3 t = ((cfg1.win 3).blk t).view.read (Elt Ideal)
      (Cert.Spec.scaleBiasRelu (arrA1 V c) (arrN1 V c) (arrB1 V c)) := by
  show (cfg1.win 3).cut (grid1.coords t) ((dat1 V c).after 3 t) = _
  rw [after1_3]
  unfold out1_3
  rw [View.canon_unit_zero zeroOff1]
  simp only [View.ld_unit_zero (S := S5000x64) zeroOff1, View.ld_unit_zero (S := S5000x1) zeroOff1, View.ld_unit_zero (S := S1x64) zeroOff1]
  funext j
  obtain ⟨p, q, rfl⟩ : ∃ (p : Fin 5000) (q : Fin 64), j = ix2 p q := ⟨j 0, j 1, eq_ix2 j⟩
  show k1_pay1 (F := Ideal) (blkA1 V c t) (blkN1 V c t) (blkB1 V c t) (ix2 p q) = _
  refine (pay1_apply (blkA1 V c t) (blkN1 V c t) (blkB1 V c t) p q).trans ?_
  have ht : t.val < 20 := lt_of_lt_of_eq t.isLt N_1
  obtain ⟨a00, a01, n00, n01, b00, b01, o00, o01⟩ := idx_facts1 t
  have hr : t.val * 5000 + p.val < 100000 := by have := p.isLt; omega
  have eo : ((cfg1.win 3).blk t).view.emb (ix2 p q) = (ix2 (⟨t.val * 5000 + p.val, hr⟩ : Fin 100000) q : S100000x64.Idx) := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  have eA : blkA1 V c t (ix2 p q) = arrA1 V c (ix2 (⟨t.val * 5000 + p.val, hr⟩ : Fin 100000) q) := by
    show V c main_v21 (((cfg1.win 0).blk t).view.emb (ix2 p q)) = V c main_v21 _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * q.val = q.val; omega
  have eN : blkN1 V c t (ix2 p (0 : Fin 1)) = arrN1 V c (ix2 (⟨t.val * 5000 + p.val, hr⟩ : Fin 100000) (0 : Fin 1)) := by
    show V c main_v16 (((cfg1.win 1).blk t).view.emb (ix2 p (0 : Fin 1))) = V c main_v16 _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  have eB : blkB1 V c t (ix2 (0 : Fin 1) q) = arrB1 V c (ix2 (0 : Fin 1) q) := by
    show V c main_v22 (((cfg1.win 2).blk t).view.emb (ix2 (0 : Fin 1) q)) = V c main_v22 _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  show _ = Cert.Spec.scaleBiasRelu (arrA1 V c) (arrN1 V c) (arrB1 V c) (((cfg1.win 3).blk t).view.emb (ix2 p q))
  rw [eo, relu1_apply, eA, eN, eB]

/-- An index of the output array is in grid point t's block iff each coordinate is in the block's range on its axis. -/
theorem mem_blk1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_v23).slice (win1_3.rect t)).set ↔ _
  rw [View.set_slice_whole, Rect.mem_set_unit]
  exact Iff.rfl

/-- The blocks cover the array: row r is in the block of grid point r / 5000. -/
theorem covered1 (i : S100000x64.Idx) :
    ∃ t : Fin cfg1.N, (cfg1.win 3).flush t = true ∧ i ∈ ((cfg1.win 3).blk t).view.set := by
  have h0 : (i 0).val < 100000 := (i 0).isLt
  have h1 : (i 1).val < 64 := (i 1).isLt
  have hN : (i 0).val / 5000 < cfg1.N := lt_of_lt_of_eq (by omega) N_1.symm
  obtain ⟨-, -, -, -, -, -, o00, o01⟩ := idx_facts1 ⟨(i 0).val / 5000, hN⟩
  have o00' : win1_3.index ⟨(i 0).val / 5000, hN⟩ (0 : Fin 2) = (i 0).val / 5000 := o00
  refine ⟨⟨(i 0).val / 5000, hN⟩, flush1_3 _, ?_⟩
  rw [mem_blk1]
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    omega
  | ⟨1, _⟩ =>
    show win1_3.index ⟨(i 0).val / 5000, hN⟩ (1 : Fin 2) * 64 ≤ (i 1).val
      ∧ (i 1).val < win1_3.index ⟨(i 0).val / 5000, hN⟩ (1 : Fin 2) * 64 + 64
    omega

theorem reg1_val (c : Dev nD) :
    (dat1 V c).arrAt 3 cfg1.N = Cert.Spec.scaleBiasRelu (V c main_v21) (V c main_v16) (V c main_v22) := by
  exact (dat1 V c).arrAt_eq_of_cover 3 (Cert.Spec.scaleBiasRelu (arrA1 V c) (arrN1 V c) (arrB1 V c))
    (fun t _ => flushed1_eq V c t) (fun i => covered1 i)

end Cert.KernelIdeal.RegVal

end
-- ==== Proof.Reg2.lean ====
import proofs.«417617_j45045617001060_1_alg».proof.Proof.Gen.KernelIdeal.Frame
import proofs.«417617_j45045617001060_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Region2

/-! ## The product of a block at an index -/

/-- The left operand is read at the output's row … -/
theorem lhs_axis0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted column; -/
theorem lhs_axis1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted row … -/
theorem rhs_axis0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column. -/
theorem rhs_axis1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A [5000,64] × [64,64] product into the zero accumulator, at (p, q): Σ_k a[p,k] · b[k,q]. -/
theorem matmul_apply (a : FVec Ideal S5000x64 .bf16) (b : FVec Ideal S64x64 .bf16) (p : Fin 5000) (q : Fin 64) :
    matmul dot_S5000x64_S64x64_S5000x64_1_0_0_1_n_n none a b (constant (F := Ideal) S5000x64 .f32 0x00000000#32) (ix2 p q)
      = ∑ k : Fin 64, a (ix2 p k) * b (ix2 k q) := by
  show FloatOps.matmul dot_S5000x64_S64x64_S5000x64_1_0_0_1_n_n none a b (constant (F := Ideal) S5000x64 .f32 0x00000000#32) (ix2 p q) = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-- A column [a,1] broadcast to [a,b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload at (p, q): Σ_k (x0[p,k] · x1[p,0]) · x2[k,q]. -/
theorem pay_apply (x0 : FVec Ideal S5000x64 .f32) (x1 : FVec Ideal S5000x1 .f32) (x2 : FVec Ideal S64x64 .f32) (p : Fin 5000) (q : Fin 64) :
    k2_pay1 (F := Ideal) x0 x1 x2 (ix2 p q) = ∑ k : Fin 64, (x0 (ix2 p k) * x1 (ix2 p (0 : Fin 1))) * x2 (ix2 k q) := by
  unfold k2_pay1
  rw [matmul_apply]
  refine Finset.sum_congr rfl fun k _ => ?_
  rw [truncf_apply, truncf_apply, mulf_apply, shapeCast_self, shapeCast_self, broadcastTo_a1_ab_apply]

open Cert.Spec (rowOf colOf scaleMatmul64 SN64 SN1 SW2)

variable (V : (c : Dev nD) → (b : Ref sig .tc) → Buf (Elt Ideal) ((c : Thread nD τ).loc b))

/-! ## From blocks to the array -/

theorem zero_off : (![0, 0] : Fin 2 → Nat) = fun _ => 0 := funext fun a => by
  match a with
  | ⟨0, _⟩ => rfl
  | ⟨1, _⟩ => rfl

/-- A block's payload at y is the whole-array function at i, once each operand block reads its array at i's row and column. -/
theorem block_apply (X : FVec Ideal SN64 .f32) (n : FVec Ideal SN1 .f32) (W : FVec Ideal SW2 .f32)
    (x0 : FVec Ideal S5000x64 .f32) (x1 : FVec Ideal S5000x1 .f32) (x2 : FVec Ideal S64x64 .f32)
    (y : S5000x64.Idx) (i : SN64.Idx)
    (h0 : ∀ k : Fin 64, x0 (ix2 (⟨(y 0).val, (y 0).isLt⟩ : Fin 5000) k) = X (ix2 (rowOf i) k))
    (h1 : x1 (ix2 (⟨(y 0).val, (y 0).isLt⟩ : Fin 5000) (0 : Fin 1)) = n (ix2 (rowOf i) (0 : Fin 1)))
    (h2 : ∀ k : Fin 64, x2 (ix2 k (⟨(y 1).val, (y 1).isLt⟩ : Fin 64)) = W (ix2 k (colOf i))) :
    k2_pay1 (F := Ideal) x0 x1 x2 y = scaleMatmul64 X n W i := by
  have hy : y = ix2 (⟨(y 0).val, (y 0).isLt⟩ : Fin 5000) (⟨(y 1).val, (y 1).isLt⟩ : Fin 64) := eq_ix2 y
  rw [hy, pay_apply]
  unfold scaleMatmul64
  refine Finset.sum_congr rfl fun k _ => ?_
  rw [h0 k, h1, h2 k]

/-- The index maps over the grid: the row-blocked windows sit at block t, the weight at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point t writes back is block t of the whole-array function of the three arrays. -/
theorem flushed_eq (c : Dev nD) (t : Fin cfg2.N) :
    (dat2 V c).flushed 3 t = ((cfg2.win 3).blk t).view.read (Elt Ideal) (scaleMatmul64 (V c main_v23) (V c main_v15) (V c main_arg6)) := by
  show (cfg2.win 3).cut (grid2.coords t) ((dat2 V c).after 3 t) = _
  rw [after2_3]
  unfold out2_3
  rw [View.canon_unit_zero zero_off]
  simp only [View.ld_unit_zero (S := S5000x64) zero_off, View.ld_unit_zero (S := S5000x1) zero_off, View.ld_unit_zero (S := S64x64) zero_off]
  obtain ⟨e00, e01, e10, e11, e20, e21, e30, e31⟩ := idx_facts t
  funext j
  refine block_apply _ _ _ _ _ _ _ _ (fun k => ?_) ?_ (fun k => ?_)
  · show V c main_v23 (((cfg2.win 0).blk t).view.emb _) = V c main_v23 _
    congr 1
    funext a
    apply Fin.ext
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * k.val = k.val; omega
  · show V c main_v15 (((cfg2.win 1).blk t).view.emb _) = V c main_v15 _
    congr 1
    funext a
    apply Fin.ext
    match a with
    | ⟨0, _⟩ => show win2_1.index t (0 : Fin 2) * 5000 + 1 * (j 0).val = win2_3.index t (0 : Fin 2) * 5000 + 1 * (j 0).val; omega
    | ⟨1, _⟩ => show win2_1.index t (1 : Fin 2) * 1 + 1 * 0 = 0; omega
  · show V c main_arg6 (((cfg2.win 2).blk t).view.emb _) = V c main_arg6 _
    congr 1
    funext a
    apply Fin.ext
    match a with
    | ⟨0, _⟩ => show win2_2.index t (0 : Fin 2) * 64 + 1 * k.val = k.val; omega
    | ⟨1, _⟩ => show win2_2.index t (1 : Fin 2) * 64 + 1 * (j 1).val = win2_3.index t (1 : Fin 2) * 64 + 1 * (j 1).val; omega

/-- An index of the array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v24).slice (win2_3.rect t)).set ↔ _
  rw [View.set_slice_whole, Rect.mem_set_unit]
  exact Iff.rfl

/-- Every index is written back: row r lies in the block of point r / 5000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, e30, e31⟩ := idx_facts t
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 64 ≤ (i 1).val ∧ (i 1).val < win2_3.index t (1 : Fin 2) * 64 + 64; omega

end Region2

variable (V : (c : Dev nD) → (b : Ref sig .tc) → Buf (Elt Ideal) ((c : Thread nD τ).loc b))

theorem reg2_val (c : Dev nD) :
    (dat2 V c).arrAt 3 cfg2.N = Cert.Spec.scaleMatmul64 (V c main_v23) (V c main_v15) (V c main_arg6) := by
  exact (dat2 V c).arrAt_eq_of_cover 3 (Cert.Spec.scaleMatmul64 (V c main_v23) (V c main_v15) (V c main_arg6))
    (fun t _ => Region2.flushed_eq V c t) Region2.cover

end Cert.KernelIdeal.RegVal

end
-- ==== Proof.Reg3.lean ====
import proofs.«417617_j45045617001060_1_alg».proof.Proof.Gen.KernelIdeal.Frame
import proofs.«417617_j45045617001060_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole block, as a constant function. -/
theorem zeroOff3 : (![0, 0] : Fin 2 → Nat) = fun _ => 0 := funext fun a => by fin_cases a <;> rfl

/-- The body's value at row p, column q of the block: the entry times the row's scale plus the column's bias,
    cut below at zero. -/
theorem pay3_apply (x0 : FVec Ideal S5000x64 .f32) (x1 : FVec Ideal S5000x1 .f32) (x2 : FVec Ideal S1x64 .f32)
    (p : Fin 5000) (q : Fin 64) :
    k3_pay1 (F := Ideal) x0 x1 x2 (ix2 p q)
      = max (x0 (ix2 p q) * x1 (ix2 p (0 : Fin 1)) + x2 (ix2 (0 : Fin 1) q)) (Ideal.ofBits .f32 0x00000000#32) := by
  unfold k3_pay1
  simp only [shapeCast_self]
  have e1 : broadcastTo S5000x64 x1 broadcasts_S5000x1_S5000x64 (ix2 p q) = x1 (ix2 p (0 : Fin 1)) :=
    broadcastTo_apply x1 broadcasts_S5000x1_S5000x64 (ix2 p q) (ix2 p (0 : Fin 1))
      (fun a => by match a with | ⟨0, _⟩ => rfl | ⟨1, _⟩ => rfl)
  have e2 : broadcastTo S5000x64 x2 broadcasts_S1x64_S5000x64 (ix2 p q) = x2 (ix2 (0 : Fin 1) q) :=
    broadcastTo_apply x2 broadcasts_S1x64_S5000x64 (ix2 p q) (ix2 (0 : Fin 1) q)
      (fun a => by match a with | ⟨0, _⟩ => rfl | ⟨1, _⟩ => rfl)
  rw [maximumf_apply, addf_apply, mulf_apply, e1, e2, broadcast_apply]
  rfl

/-- The arrays the region finds, at their literal shapes. -/
abbrev arrA3 (c : Dev nD) : FVec Ideal S100000x64 .f32 := V c main_v28
abbrev arrN3 (c : Dev nD) : FVec Ideal S100000x1 .f32 := V c main_v16
abbrev arrB3 (c : Dev nD) : FVec Ideal S1x64 .f32 := V c main_v29

/-- The blocks of the three inputs at a grid point, at their literal shapes. -/
abbrev blkA3 (c : Dev nD) (t : Fin cfg3.N) : FVec Ideal S5000x64 .f32 := iblk3 V c 0 t
abbrev blkN3 (c : Dev nD) (t : Fin cfg3.N) : FVec Ideal S5000x1 .f32 := iblk3 V c 1 t
abbrev blkB3 (c : Dev nD) (t : Fin cfg3.N) : FVec Ideal S1x64 .f32 := iblk3 V c 2 t

/-- The block index maps over the grid: the entry array's, the scale's and the output's block is the grid point's
    on the rows and the first on the columns; the bias has one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The whole-array function at row r, column k. -/
theorem relu3_apply (A : FVec Ideal S100000x64 .f32) (n : FVec Ideal S100000x1 .f32) (b : FVec Ideal S1x64 .f32)
    (r : Fin 100000) (k : Fin 64) :
    Cert.Spec.scaleBiasRelu A n b (ix2 r k)
      = max (A (ix2 r k) * n (ix2 r (0 : Fin 1)) + b (ix2 (0 : Fin 1) k)) (Ideal.ofBits .f32 0x00000000#32) := rfl

/-- What grid point t writes back is block t of the whole-array function of the three arrays as the region finds
    them: row p of the block is row 5000 t + p of the entry array and of the scale, and the bias has one block. -/
theorem flushed3_eq (c : Dev nD) (t : Fin cfg3.N) :
    (dat3 V c).flushed 3 t = ((cfg3.win 3).blk t).view.read (Elt Ideal)
      (Cert.Spec.scaleBiasRelu (arrA3 V c) (arrN3 V c) (arrB3 V c)) := by
  show (cfg3.win 3).cut (grid3.coords t) ((dat3 V c).after 3 t) = _
  rw [after3_3]
  unfold out3_3
  rw [View.canon_unit_zero zeroOff3]
  simp only [View.ld_unit_zero (S := S5000x64) zeroOff3, View.ld_unit_zero (S := S5000x1) zeroOff3, View.ld_unit_zero (S := S1x64) zeroOff3]
  funext j
  obtain ⟨p, q, rfl⟩ : ∃ (p : Fin 5000) (q : Fin 64), j = ix2 p q := ⟨j 0, j 1, eq_ix2 j⟩
  show k3_pay1 (F := Ideal) (blkA3 V c t) (blkN3 V c t) (blkB3 V c t) (ix2 p q) = _
  refine (pay3_apply (blkA3 V c t) (blkN3 V c t) (blkB3 V c t) p q).trans ?_
  have ht : t.val < 20 := lt_of_lt_of_eq t.isLt N_3
  obtain ⟨a00, a01, n00, n01, b00, b01, o00, o01⟩ := idx_facts3 t
  have hr : t.val * 5000 + p.val < 100000 := by have := p.isLt; omega
  have eo : ((cfg3.win 3).blk t).view.emb (ix2 p q) = (ix2 (⟨t.val * 5000 + p.val, hr⟩ : Fin 100000) q : S100000x64.Idx) := by
    funext a; apply Fin.ext
    match a with
    | ⟨0, _⟩ => show win3_3.index t (0 : Fin 2) * 5000 + 1 * p.val = t.val * 5000 + p.val; omega
    | ⟨1, _⟩ => show win3_3.index t (1 : Fin 2) * 64 + 1 * q.val = q.val; omega
  have eA : blkA3 V c t (ix2 p q) = arrA3 V c (ix2 (⟨t.val * 5000 + p.val, hr⟩ : Fin 100000) q) := by
    show V c main_v28 (((cfg3.win 0).blk t).view.emb (ix2 p q)) = V c main_v28 _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * q.val = q.val; omega
  have eN : blkN3 V c t (ix2 p (0 : Fin 1)) = arrN3 V c (ix2 (⟨t.val * 5000 + p.val, hr⟩ : Fin 100000) (0 : Fin 1)) := by
    show V c main_v16 (((cfg3.win 1).blk t).view.emb (ix2 p (0 : Fin 1))) = V c main_v16 _
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 1 + 1 * 0 = 0; omega
  have eB : blkB3 V c t (ix2 (0 : Fin 1) q) = arrB3 V c (ix2 (0 : Fin 1) q) := by
    show V c main_v29 (((cfg3.win 2).blk t).view.emb (ix2 (0 : Fin 1) q)) = V c main_v29 _
    refine congrArg _ (funext fun a => Fin.ext ?_)
    match a with
    | ⟨0, _⟩ => show win3_2.index t (0 : Fin 2) * 1 + 1 * 0 = 0; omega
    | ⟨1, _⟩ => show win3_2.index t (1 : Fin 2) * 64 + 1 * q.val = q.val; omega
  show _ = Cert.Spec.scaleBiasRelu (arrA3 V c) (arrN3 V c) (arrB3 V c) (((cfg3.win 3).blk t).view.emb (ix2 p q))
  rw [eo, relu3_apply, eA, eN, eB]

/-- An index of the output array is in grid point t's block iff each coordinate is in the block's range on its axis. -/
theorem mem_blk3 (t : Fin cfg3.N) (i : S100000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v30).slice (win3_3.rect t)).set ↔ _
  rw [View.set_slice_whole, Rect.mem_set_unit]
  exact Iff.rfl

/-- The blocks cover the array: row r is in the block of grid point r / 5000. -/
theorem covered3 (i : S100000x64.Idx) :
    ∃ t : Fin cfg3.N, (cfg3.win 3).flush t = true ∧ i ∈ ((cfg3.win 3).blk t).view.set := by
  have h0 : (i 0).val < 100000 := (i 0).isLt
  have h1 : (i 1).val < 64 := (i 1).isLt
  have hN : (i 0).val / 5000 < cfg3.N := lt_of_lt_of_eq (by omega) N_3.symm
  obtain ⟨-, -, -, -, -, -, o00, o01⟩ := idx_facts3 ⟨(i 0).val / 5000, hN⟩
  have o00' : win3_3.index ⟨(i 0).val / 5000, hN⟩ (0 : Fin 2) = (i 0).val / 5000 := o00
  refine ⟨⟨(i 0).val / 5000, hN⟩, flush3_3 _, ?_⟩
  rw [mem_blk3]
  intro a
  match a with
  | ⟨0, _⟩ =>
    show win3_3.index ⟨(i 0).val / 5000, hN⟩ (0 : Fin 2) * 5000 ≤ (i 0).val
      ∧ (i 0).val < win3_3.index ⟨(i 0).val / 5000, hN⟩ (0 : Fin 2) * 5000 + 5000
    omega
  | ⟨1, _⟩ =>
    show win3_3.index ⟨(i 0).val / 5000, hN⟩ (1 : Fin 2) * 64 ≤ (i 1).val
      ∧ (i 1).val < win3_3.index ⟨(i 0).val / 5000, hN⟩ (1 : Fin 2) * 64 + 64
    omega

theorem reg3_val (c : Dev nD) :
    (dat3 V c).arrAt 3 cfg3.N = Cert.Spec.scaleBiasRelu (V c main_v28) (V c main_v16) (V c main_v29) := by
  exact (dat3 V c).arrAt_eq_of_cover 3 (Cert.Spec.scaleBiasRelu (arrA3 V c) (arrN3 V c) (arrB3 V c))
    (fun t _ => flushed3_eq V c t) (fun i => covered3 i)

end Cert.KernelIdeal.RegVal

end
-- ==== Proof.Reg4.lean ====
import proofs.«417617_j45045617001060_1_alg».proof.Proof.Gen.KernelIdeal.Frame
import proofs.«417617_j45045617001060_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen
open Idealize.ShloMosaic Idealize.ShloMosaic.TcCoe Idealize.ShloMosaic.ValueIdx Idealize.SL.Sem
open Idealize.ShloMosaic.Pipeline (Dat Cfg Window)

namespace Region4

/-! ## The product of a block of rows with the weights, at an index -/

theorem lhs4_0 (i : S5000x8.Idx) (q : dot_S5000x64_S64x8_S5000x8_1_0_0_1_n_n.contr.Idx) :
    (dot_S5000x64_S64x8_S5000x8_1_0_0_1_n_n.lhsIdx i q 0).val = (i 0).val := by
  unfold DotDims.lhsIdx
  rw [dif_neg (show ¬(0 : Fin S5000x64.rank) ∈ dot_S5000x64_S64x8_S5000x8_1_0_0_1_n_n.lhsBatch by decide), dif_pos (show (0 : Fin S5000x64.rank) ∈ dot_S5000x64_S64x8_S5000x8_1_0_0_1_n_n.lhsNonContracting by decide)]
  rfl
theorem lhs4_1 (i : S5000x8.Idx) (q : dot_S5000x64_S64x8_S5000x8_1_0_0_1_n_n.contr.Idx) :
    (dot_S5000x64_S64x8_S5000x8_1_0_0_1_n_n.lhsIdx i q 1).val = (q ⟨0, by decide⟩).val :=
  dot_S5000x64_S64x8_S5000x8_1_0_0_1_n_n.lhsIdx_val_of_single rfl i q
theorem rhs4_0 (i : S5000x8.Idx) (q : dot_S5000x64_S64x8_S5000x8_1_0_0_1_n_n.contr.Idx) :
    (dot_S5000x64_S64x8_S5000x8_1_0_0_1_n_n.rhsIdx i q 0).val = (q ⟨0, by decide⟩).val :=
  dot_S5000x64_S64x8_S5000x8_1_0_0_1_n_n.rhsIdx_val_of_single rfl i q
theorem rhs4_1 (i : S5000x8.Idx) (q : dot_S5000x64_S64x8_S5000x8_1_0_0_1_n_n.contr.Idx) :
    (dot_S5000x64_S64x8_S5000x8_1_0_0_1_n_n.rhsIdx i q 1).val = (i 1).val := by
  unfold DotDims.rhsIdx
  rw [dif_neg (show ¬(1 : Fin S64x8.rank) ∈ dot_S5000x64_S64x8_S5000x8_1_0_0_1_n_n.rhsBatch by decide), dif_pos (show (1 : Fin S64x8.rank) ∈ dot_S5000x64_S64x8_S5000x8_1_0_0_1_n_n.rhsNonContracting by decide)]
  rfl

/-- A [5000,64] × [64,8] product into the zero accumulator, at (p, q): the sum over the 64 shared coordinates. -/
theorem matmul4_apply (l : FVec Ideal S5000x64 .bf16) (r : FVec Ideal S64x8 .bf16) (p : Fin 5000) (q : Fin 8) :
    matmul dot_S5000x64_S64x8_S5000x8_1_0_0_1_n_n none l r (constant (F := Ideal) S5000x8 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x8_S5000x8_1_0_0_1_n_n 64 rfl rfl).symm]
  refine Finset.sum_congr rfl fun k _ => ?_
  have hk := ValueIdx.contrEquiv1_symm_val dot_S5000x64_S64x8_S5000x8_1_0_0_1_n_n 64 rfl rfl k
  have el : dot_S5000x64_S64x8_S5000x8_1_0_0_1_n_n.lhsIdx (ix2 p q) ((ValueIdx.contrEquiv1 dot_S5000x64_S64x8_S5000x8_1_0_0_1_n_n 64 rfl rfl).symm k) = ix2 p k := funext fun a => Fin.ext (by
    match a with
    | ⟨0, _⟩ => exact lhs4_0 _ _
    | ⟨1, _⟩ => exact (lhs4_1 _ _).trans hk)
  have er : dot_S5000x64_S64x8_S5000x8_1_0_0_1_n_n.rhsIdx (ix2 p q) ((ValueIdx.contrEquiv1 dot_S5000x64_S64x8_S5000x8_1_0_0_1_n_n 64 rfl rfl).symm k) = ix2 k q := funext fun a => Fin.ext (by
    match a with
    | ⟨0, _⟩ => exact (rhs4_0 _ _).trans hk
    | ⟨1, _⟩ => exact rhs4_1 _ _)
  rw [el, er]

/-! ## The lane reductions and the column layouts, at an index -/

/-- The index a lane reduction of a [5000,8] block reads at row p and lane k. -/
theorem lift4 (h : S5000x8.Reduces [1] S5000) (p : Fin 5000) (k : Fin (S5000x8.size 1)) :
    h.lift (ix1 p) k = ix2 p (⟨k.val, k.isLt⟩ : Fin 8) := by
  funext c; apply Fin.ext
  fin_cases c <;> rfl

/-- The maximum over the 8 lanes of row p: the fold of max from −∞. -/
theorem laneMax4_apply (src : FVec Ideal S5000x8 .f32) (h : S5000x8.Reduces [1] S5000) (hφ : FKind.Formats .f32)
    (hacc : (0xFF800000#32 : BitVec 32) = 0xFF800000#32) (p : Fin 5000) :
    multiReduction (F := Ideal) .maximumf [1] S5000 src 0xFF800000#32 h hφ hacc (ix1 p)
      = (Finset.univ : Finset (Fin 8)).fold max (Ideal.ofBits .f32 0xFF800000#32) (fun k => src (ix2 p k)) := by
  refine (Ideal.multiReduction_maximumf_single src 0xFF800000#32 h hφ hacc (ix1 p)).trans ?_
  show (Finset.univ : Finset (Fin 8)).fold max (Ideal.ofBits .f32 0xFF800000#32) (src ∘ h.lift (ix1 p)) = _
  congr 1
  funext k
  show src (h.lift (ix1 p) k) = src (ix2 p k)
  rw [lift4 h p k]
  rfl

/-- The sum over the 8 lanes of row p. -/
theorem laneSum4_apply (src : FVec Ideal S5000x8 .f32) (h : S5000x8.Reduces [1] S5000) (hφ : FKind.Formats .f32)
    (hacc : (0x00000000#32 : BitVec 32) = 0x00000000#32) (p : Fin 5000) :
    multiReduction (F := Ideal) .add [1] S5000 src 0x00000000#32 h hφ hacc (ix1 p) = ∑ k : Fin 8, src (ix2 p k) := by
  refine (Ideal.multiReduction_add_single src 0x00000000#32 h hφ hacc (ix1 p)).trans ?_
  show ∑ k : Fin 8, src (h.lift (ix1 p) k) = _
  refine Finset.sum_congr rfl fun k _ => ?_
  rw [lift4 h p k]

/-- A vector of 5000 entries as a column: entry (p, 0) is entry p. -/
theorem column4_apply {α : Type} (v : S5000.Idx → α) (h : S5000.ShapeCasts S5000x1) (p : Fin 5000) (u : Fin 1) :
    shapeCast S5000x1 v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- A column broadcast over 8 lanes: entry (p, q) is the column's entry (p, 0). -/
theorem spread4_apply {α : Type} (v : S5000x1.Idx → α) (h : S5000x1.Broadcasts S5000x8) (p : Fin 5000) (q : Fin 8) :
    broadcastTo S5000x8 v h (ix2 p q) = v (ix2 p (0 : Fin 1)) := by
  refine broadcastTo_apply v h (ix2 p q) (ix2 p (0 : Fin 1)) fun ax => ?_
  match ax with
  | ⟨0, _⟩ =>
    show p.val = if (5000 : Nat) = 1 then 0 else p.val
    rw [if_neg (by decide)]
  | ⟨1, _⟩ =>
    show 0 = if (1 : Nat) = 1 then 0 else q.val
    rw [if_pos rfl]

/-! ## The block's logits and their row-wise softmax, at an index -/

/-- The logits of a block of rows: rows × weights + bias. -/
def logits4 (x0 : FVec Ideal S5000x64 .f32) (x1 : FVec Ideal S64x8 .f32) (x2 : FVec Ideal S1x8 .f32) (p : Fin 5000) (q : Fin 8) : Ideal .f32 :=
  (∑ k : Fin 64, x0 (ix2 p k) * x1 (ix2 k q)) + x2 (ix2 (0 : Fin 1) q)

/-- A row's maximum, as the block computes it. -/
def rowMax4 (L : Fin 5000 → Fin 8 → Ideal .f32) (p : Fin 5000) : Ideal .f32 :=
  max (Ideal.ofBits .f32 0xFF800000#32)
    ((Finset.univ : Finset (Fin 8)).fold max (Ideal.ofBits .f32 0xFF800000#32) (fun k => L p k))

/-- The product plus the bias row, at (p, q). -/
theorem logits4_apply (x0 : FVec Ideal S5000x64 .f32) (x1 : FVec Ideal S64x8 .f32) (x2 : FVec Ideal S1x8 .f32) (p : Fin 5000) (q : Fin 8) :
    addf (matmul dot_S5000x64_S64x8_S5000x8_1_0_0_1_n_n none
        (truncf .bf16 (shapeCast S5000x64 x0 shapeCasts_S5000x64_S5000x64) bitsLt_bf16_f32)
        (truncf .bf16 x1 bitsLt_bf16_f32) (constant (F := Ideal) S5000x8 .f32 0x00000000#32))
      (broadcastTo S5000x8 (shapeCast S1x8 x2 shapeCasts_S1x8_S1x8) broadcasts_S1x8_S5000x8) (ix2 p q)
      = logits4 x0 x1 x2 p q := by
  rw [addf_apply, matmul4_apply, shapeCast_self, shapeCast_self, broadcastTo_1b_ab_apply]
  rfl

/-- The shifted softmax of the rows of a [5000,8] block, at (p, q). -/
theorem softmax4_apply (L : FVec Ideal S5000x8 .f32) (h : S5000x8.Reduces [1] S5000) (hφ : FKind.Formats .f32)
    (hmax : (0xFF800000#32 : BitVec 32) = 0xFF800000#32) (hsum : (0x00000000#32 : BitVec 32) = 0x00000000#32)
    (hc : S5000.ShapeCasts S5000x1) (hb : S5000x1.Broadcasts S5000x8) (p : Fin 5000) (q : Fin 8) :
    divf
      (exp (subf L (broadcastTo S5000x8 (shapeCast S5000x1
        (maximumf (broadcast S5000 (FloatOps.ofBits (F := Ideal) .f32 0xFF800000#32))
          (multiReduction (F := Ideal) .maximumf [1] S5000 L 0xFF800000#32 h hφ hmax)) hc) hb)))
      (broadcastTo S5000x8 (shapeCast S5000x1
        (multiReduction (F := Ideal) .add [1] S5000
          (exp (subf L (broadcastTo S5000x8 (shapeCast S5000x1
            (maximumf (broadcast S5000 (FloatOps.ofBits (F := Ideal) .f32 0xFF800000#32))
              (multiReduction (F := Ideal) .maximumf [1] S5000 L 0xFF800000#32 h hφ hmax)) hc) hb)))
          0x00000000#32 h hφ hsum) hc) hb)
      (ix2 p q)
      = Ideal.div (Ideal.exp (L (ix2 p q) - rowMax4 (fun a b => L (ix2 a b)) p))
          (∑ k : Fin 8, Ideal.exp (L (ix2 p k) - rowMax4 (fun a b => L (ix2 a b)) p)) := by
  have hM : ∀ (a : Fin 5000) (b : Fin 8), (broadcastTo S5000x8 (shapeCast S5000x1
        (maximumf (broadcast S5000 (FloatOps.ofBits (F := Ideal) .f32 0xFF800000#32))
          (multiReduction (F := Ideal) .maximumf [1] S5000 L 0xFF800000#32 h hφ hmax)) hc) hb) (ix2 a b)
        = rowMax4 (fun a b => L (ix2 a b)) a := fun a b => by
    rw [spread4_apply, column4_apply, maximumf_apply, laneMax4_apply]
    rfl
  generalize (broadcastTo S5000x8 (shapeCast S5000x1
        (maximumf (broadcast S5000 (FloatOps.ofBits (F := Ideal) .f32 0xFF800000#32))
          (multiReduction (F := Ideal) .maximumf [1] S5000 L 0xFF800000#32 h hφ hmax)) hc) hb) = Mx at hM
  rw [divf_apply, spread4_apply, column4_apply, laneSum4_apply]
  show Ideal.div (Ideal.exp (L (ix2 p q) - Mx (ix2 p q))) (∑ k : Fin 8, Ideal.exp (L (ix2 p k) - Mx (ix2 p k))) = _
  simp only [hM]

/-- The block's payload at (p, q): the softmax of row p of the logits, at lane q. -/
theorem pay4_apply (x0 : Vec Ideal S5000x64 .f32) (x1 : Vec Ideal S64x8 .f32) (x2 : Vec Ideal S1x8 .f32) (p : Fin 5000) (q : Fin 8) :
    k4_pay1 (F := Ideal) x0 x1 x2 (ix2 p q)
      = Ideal.div (Ideal.exp (logits4 x0 x1 x2 p q - rowMax4 (logits4 x0 x1 x2) p))
          (∑ k : Fin 8, Ideal.exp (logits4 x0 x1 x2 p k - rowMax4 (logits4 x0 x1 x2) p)) := by
  unfold k4_pay1
  dsimp only
  have e : ∀ (a : Fin 5000) (b : Fin 8), _ = logits4 x0 x1 x2 a b := logits4_apply x0 x1 x2
  generalize addf (matmul dot_S5000x64_S64x8_S5000x8_1_0_0_1_n_n none
        (truncf .bf16 (shapeCast S5000x64 x0 shapeCasts_S5000x64_S5000x64) bitsLt_bf16_f32)
        (truncf .bf16 x1 bitsLt_bf16_f32) (constant (F := Ideal) S5000x8 .f32 0x00000000#32))
      (broadcastTo S5000x8 (shapeCast S1x8 x2 shapeCasts_S1x8_S1x8) broadcasts_S1x8_S5000x8) = L at e
  refine (softmax4_apply L _ _ _ _ _ _ p q).trans ?_
  have e' : (fun a b => L (ix2 a b)) = logits4 x0 x1 x2 := funext fun a => funext fun b => e a b
  rw [e']
  simp only [e]

/-! ## From the blocks to the array -/

/-- The softmax head at an index of the array, from a block's payload: the block's rows are the array's rows at the
    index's row, the weights and the bias are whole. -/
theorem block4_eq (X : FVec Ideal Cert.Spec.SN64 .f32) (W : FVec Ideal Cert.Spec.SWp .f32) (b : FVec Ideal Cert.Spec.SB8 .f32)
    (x0 : Vec Ideal S5000x64 .f32) (x1 : Vec Ideal S64x8 .f32) (x2 : Vec Ideal S1x8 .f32)
    (p : Fin 5000) (q : Fin 8) (i : Cert.Spec.SN8.Idx)
    (h0 : ∀ k : Fin 64, x0 (ix2 p k) = X (ix2 (Cert.Spec.rowOf i) k))
    (h1 : ∀ (k : Fin 64) (l : Fin 8), x1 (ix2 k l) = W (ix2 k l))
    (h2 : ∀ l : Fin 8, x2 (ix2 (0 : Fin 1) l) = b (ix2 (0 : Fin 1) l))
    (hq : q = Cert.Spec.colOf i) :
    k4_pay1 (F := Ideal) x0 x1 x2 (ix2 p q) = Cert.Spec.linearSoftmax X W b i := by
  rw [pay4_apply]
  have hL : ∀ l : Fin 8, logits4 x0 x1 x2 p l = Cert.Spec.logits X W b (ix2 (Cert.Spec.rowOf i) l) := fun l => by
    unfold logits4 Cert.Spec.logits
    simp only [h0, h1, h2]
  have hi : i = ix2 (Cert.Spec.rowOf i) (Cert.Spec.colOf i) := eq_ix2 i
  have hM : rowMax4 (logits4 x0 x1 x2) p = Cert.Spec.rowMax (Cert.Spec.logits X W b) (Cert.Spec.rowOf i) := by
    unfold rowMax4 Cert.Spec.rowMax
    simp only [hL]
  unfold Cert.Spec.linearSoftmax Cert.Spec.softmaxRows Cert.Spec.shiftedExp
  rw [hM]
  simp only [hL]
  subst hq
  rw [← hi]

end Region4

variable (V : (c : Dev nD) → (b : Ref sig .tc) → Buf (Elt Ideal) ((c : Thread nD τ).loc b))

namespace Region4

theorem hz4 : (![0, 0] : Fin 2 → Nat) = fun _ => 0 := funext fun a => by fin_cases a <;> rfl

/-- The printed index maps over the grid: the rows' window and the output's window sit at block t of the rows, the
    weights' and the bias's at block 0. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the softmax head of the three arrays as the region finds them. -/
theorem flushed4_eq (c : Dev nD) (t : Fin cfg4.N) :
    (dat4 V c).flushed 3 t = ((cfg4.win 3).blk t).view.read (Elt Ideal)
      (Cert.Spec.linearSoftmax (V c main_v30) (V c main_arg8) (V c main_v31)) := by
  show (cfg4.win 3).cut (grid4.coords t) ((dat4 V c).after 3 t) = _
  rw [after4_3]
  unfold out4_3
  rw [View.canon_unit_zero hz4]
  simp only [View.ld_unit_zero (S := S5000x64) hz4, View.ld_unit_zero (S := S64x8) hz4, View.ld_unit_zero (S := S1x8) hz4]
  obtain ⟨e00, e01, e10, e11, e20, e21, e30, e31⟩ := idx_facts4 t
  funext j
  obtain ⟨p, q, rfl⟩ : ∃ (p : Fin 5000) (q : Fin 8), j = ix2 p q := ⟨j 0, j 1, eq_ix2 j⟩
  show k4_pay1 (F := Ideal) (iblk4 V c 0 t) (iblk4 V c 1 t) (iblk4 V c 2 t) (ix2 p q)
    = Cert.Spec.linearSoftmax (V c main_v30) (V c main_arg8) (V c main_v31) (((cfg4.win 3).blk t).view.emb (ix2 p q))
  refine block4_eq _ _ _ _ _ _ p q _ (fun k => ?_) (fun k l => ?_) (fun l => ?_) ?_
  · show V c main_v30 (((cfg4.win 0).blk t).view.emb (ix2 p k))
      = V c main_v30 (ix2 (Cert.Spec.rowOf (((cfg4.win 3).blk t).view.emb (ix2 p q))) k)
    refine congrArg _ (funext fun a => Fin.ext ?_)
    match a with
    | ⟨0, _⟩ => show win4_0.index t (0 : Fin 2) * 5000 + 1 * p.val = win4_3.index t (0 : Fin 2) * 5000 + 1 * p.val; omega
    | ⟨1, _⟩ => show win4_0.index t (1 : Fin 2) * 64 + 1 * k.val = k.val; omega
  · show V c main_arg8 (((cfg4.win 1).blk t).view.emb (ix2 k l)) = V c main_arg8 (ix2 k l)
    refine congrArg _ (funext fun a => Fin.ext ?_)
    match a with
    | ⟨0, _⟩ => show win4_1.index t (0 : Fin 2) * 64 + 1 * k.val = k.val; omega
    | ⟨1, _⟩ => show win4_1.index t (1 : Fin 2) * 8 + 1 * l.val = l.val; omega
  · show V c main_v31 (((cfg4.win 2).blk t).view.emb (ix2 (0 : Fin 1) l)) = V c main_v31 (ix2 (0 : Fin 1) l)
    refine congrArg _ (funext fun a => Fin.ext ?_)
    match a with
    | ⟨0, _⟩ => show win4_2.index t (0 : Fin 2) * 1 + 1 * 0 = 0; omega
    | ⟨1, _⟩ => show win4_2.index t (1 : Fin 2) * 8 + 1 * l.val = l.val; omega
  · apply Fin.ext
    show q.val = win4_3.index t (1 : Fin 2) * 8 + 1 * q.val
    omega

/-- An index of the array is in point t's block iff each coordinate is in the block's range on its axis. -/
theorem mem_blk4 (t : Fin cfg4.N) (i : S100000x8.Idx) :
    i ∈ ((cfg4.win 3).blk t).view.set ↔ ∀ a : Fin 2, win4_3.index t a * S5000x8.size a ≤ (i a).val
      ∧ (i a).val < win4_3.index t a * S5000x8.size a + S5000x8.size a := by
  show i ∈ ((View.whole main_v32).slice (win4_3.rect t)).set ↔ _
  rw [View.set_slice_whole, Rect.mem_set_unit]
  exact Iff.rfl

/-- Every index of the array is in the block of the point its row falls in: row r in block r / 5000. -/
theorem cover4 (i : S100000x8.Idx) :
    ∃ t : Fin cfg4.N, (cfg4.win 3).flush t = true ∧ i ∈ ((cfg4.win 3).blk t).view.set := by
  have hi0 : (i 0).val < 100000 := (i 0).isLt
  have hi1 : (i 1).val < 8 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, e30, e31⟩ := idx_facts4 t
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 8 ≤ (i 1).val ∧ (i 1).val < win4_3.index t (1 : Fin 2) * 8 + 8; omega

end Region4

/-- The output array after the region is the softmax head, row by row, of the three input arrays as the region found
    them: every point writes back its block of that one function, and the blocks cover the array. -/
theorem reg4_val (c : Dev nD) :
    (dat4 V c).arrAt 3 cfg4.N = Cert.Spec.linearSoftmax (V c main_v30) (V c main_arg8) (V c main_v31) :=
  (dat4 V c).arrAt_eq_of_cover 3 _ (fun t _ => Region4.flushed4_eq V c t) Region4.cover4

end Cert.KernelIdeal.RegVal

end
-- ==== Proof.RefStages.lean ====
import proofs.«417617_j45045617001060_1_alg».proof.Proof.Gen.ReferenceIdeal.Read
import proofs.«417617_j45045617001060_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefStages

open Cert.ReferenceIdeal Cert.ReferenceIdeal.Read
open Idealize.ShloMosaic Idealize.ShloMosaic.TcCoe Idealize.ShloMosaic.ValueIdx

variable (x0 : FVec Ideal S100000x128 .f32) (x1 x2 : IVec S1600000 32) (x4 : FVec Ideal S128x64 .f32) (x5 : FVec Ideal S64 .f32)
  (x6 : FVec Ideal S64x64 .f32) (x7 : FVec Ideal S64 .f32) (x8 : FVec Ideal S64x8 .f32) (x9 : FVec Ideal S8 .f32)

/-- From −∞ the reduce of an N × 8 array over its columns with a maximum body is, at row j, the fold of max over the
    eight entries of that row. -/
theorem rowReduceMax (L : FVec Ideal S100000x8 .f32) (j : S100000.Idx) :
    Host.reduce FloatOps.maximumf L (val_main_cst_11 (F := Ideal)) Gen.reducesTo_S100000x8_S100000_d1 Gen.h_S_ j
      = (Finset.univ : Finset (Fin 8)).fold max (Ideal.ofBits .f32 0xFF800000#32)
          (fun k => L (ix2 (⟨(j 0).val, (j 0).isLt⟩ : Fin 100000) k)) := by
  have h : S100000x8.Reduces [1] S100000 := by decide
  rw [Host.reduce_eq_fold_single FloatOps.maximumf L _ Gen.reducesTo_S100000x8_S100000_d1 h Gen.h_S_]
  have hf : (L ∘ h.lift j) = fun k : Fin 8 => L (ix2 (⟨(j 0).val, (j 0).isLt⟩ : Fin 100000) k) :=
    funext fun k => congrArg L (funext fun a => Fin.ext (by match a with | ⟨0, _⟩ => rfl | ⟨1, _⟩ => rfl))
  exact congrArg (fun f => Finset.fold max (Ideal.ofBits .f32 0xFF800000#32) f (Finset.univ : Finset (Fin 8))) hf

/-- The logits: the product with the head's weights plus the bias row. -/
theorem v60_eq : val_main_v60 (F := Ideal) x0 x1 x2 x4 x5 x6 x7 x8 x9
    = Cert.Spec.logits (val_main_v56 (F := Ideal) x0 x1 x2 x4 x5 x6 x7) x8 (val_main_v58 (F := Ideal) x9) := by
  funext i
  rw [val_main_v60_apply, val_main_v57_apply, val_main_v59_apply]
  unfold Cert.Spec.logits
  generalize val_main_v56 (F := Ideal) x0 x1 x2 x4 x5 x6 x7 = X
  generalize val_main_v58 (F := Ideal) x9 = b
  have eb : idx_main_v59 i = ix2 (0 : Fin 1) (Cert.Spec.colOf i) :=
    funext fun a => Fin.ext (by match a with | ⟨0, _⟩ => rfl | ⟨1, _⟩ => rfl)
  rw [eb, Ideal.addf_def]
  refine congrArg (· + _) (Finset.sum_congr rfl fun k _ => ?_)
  have el : lidx_main_v57 i k = ix2 (Cert.Spec.rowOf i) k :=
    funext fun a => Fin.ext (by match a with | ⟨0, _⟩ => rfl | ⟨1, _⟩ => rfl)
  have er : ridx_main_v57 i k = ix2 k (Cert.Spec.colOf i) :=
    funext fun a => Fin.ext (by match a with | ⟨0, _⟩ => rfl | ⟨1, _⟩ => rfl)
  rw [el, er]

/-- The row maximum stage: max of −∞ and the fold of max over the row's logits. -/
theorem v63_apply_rowMax (j : S100000.Idx) :
    val_main_v63 (F := Ideal) x0 x1 x2 x4 x5 x6 x7 x8 x9 j
      = Cert.Spec.rowMax (val_main_v60 (F := Ideal) x0 x1 x2 x4 x5 x6 x7 x8 x9) (⟨(j 0).val, (j 0).isLt⟩ : Fin 100000) := by
  rw [val_main_v63_apply, val_main_v62_apply, val_main_cst_12_apply]
  unfold val_main_v61 Cert.Spec.rowMax
  generalize val_main_v60 (F := Ideal) x0 x1 x2 x4 x5 x6 x7 x8 x9 = L
  rw [rowReduceMax L j, Ideal.maximumf_def, Ideal.ofBits_def]

/-- The shifted exponentials: exp (logit − row maximum). -/
theorem v67_eq : val_main_v67 (F := Ideal) x0 x1 x2 x4 x5 x6 x7 x8 x9
    = Cert.Spec.shiftedExp (val_main_v60 (F := Ideal) x0 x1 x2 x4 x5 x6 x7 x8 x9) := by
  funext i
  rw [val_main_v67_apply, val_main_v66_apply, val_main_v65_apply, val_main_v64_apply, v63_apply_rowMax]
  unfold Cert.Spec.shiftedExp
  generalize val_main_v60 (F := Ideal) x0 x1 x2 x4 x5 x6 x7 x8 x9 = L
  rw [Ideal.hostUnary_exp_def, Ideal.subf_def]

theorem v18_eq : val_main_v18 (F := Ideal) x0 x1 x4 = Cert.Spec.scaleMatmul128 x0 (val_main_v15 (F := Ideal) x1) x4 := by
  funext i
  rw [val_main_v18_apply]
  unfold Cert.Spec.scaleMatmul128
  refine Finset.sum_congr rfl fun k _ => ?_
  rw [val_main_v17_apply, val_main_v16_apply]
  generalize val_main_v15 (F := Ideal) x1 = n
  have el : lidx_main_v18 i k = ix2 (Cert.Spec.rowOf i) k :=
    funext fun a => Fin.ext (by match a with | ⟨0, _⟩ => rfl | ⟨1, _⟩ => rfl)
  have er : ridx_main_v18 i k = ix2 k (Cert.Spec.colOf i) :=
    funext fun a => Fin.ext (by match a with | ⟨0, _⟩ => rfl | ⟨1, _⟩ => rfl)
  have en : idx_main_v16 (lidx_main_v18 i k) = ix2 (Cert.Spec.rowOf i) (0 : Fin 1) :=
    funext fun a => Fin.ext (by match a with | ⟨0, _⟩ => rfl | ⟨1, _⟩ => rfl)
  rw [en, el, er, Ideal.mulf_def]

theorem v35_eq : val_main_v35 (F := Ideal) x0 x1 x2 x4 x5
    = Cert.Spec.scaleBiasRelu (val_main_v28 (F := Ideal) x0 x1 x2 x4) (val_main_v29 (F := Ideal) x2) (val_main_v32 (F := Ideal) x5) := by
  funext i
  rw [val_main_v35_apply, val_main_v34_apply, val_main_v31_apply, val_main_v30_apply, val_main_v33_apply,
    val_main_call0_v0_apply, val_main_call0_cst_apply]
  unfold Cert.Spec.scaleBiasRelu
  generalize val_main_v28 (F := Ideal) x0 x1 x2 x4 = A
  generalize val_main_v29 (F := Ideal) x2 = n
  generalize val_main_v32 (F := Ideal) x5 = b
  have en : idx_main_v30 i = ix2 (Cert.Spec.rowOf i) (0 : Fin 1) :=
    funext fun a => Fin.ext (by match a with | ⟨0, _⟩ => rfl | ⟨1, _⟩ => rfl)
  have eb : idx_main_v33 i = ix2 (0 : Fin 1) (Cert.Spec.colOf i) :=
    funext fun a => Fin.ext (by match a with | ⟨0, _⟩ => rfl | ⟨1, _⟩ => rfl)
  rw [en, eb]
  simp only [Ideal.maximumf_def, Ideal.addf_def, Ideal.mulf_def, Ideal.ofBits_def]

theorem v39_eq : val_main_v39 (F := Ideal) x0 x1 x2 x4 x5 x6
    = Cert.Spec.scaleMatmul64 (val_main_v35 (F := Ideal) x0 x1 x2 x4 x5) (val_main_v36 (F := Ideal) x1) x6 := by
  funext i
  rw [val_main_v39_apply]
  unfold Cert.Spec.scaleMatmul64
  refine Finset.sum_congr rfl fun k _ => ?_
  rw [val_main_v38_apply, val_main_v37_apply]
  generalize val_main_v35 (F := Ideal) x0 x1 x2 x4 x5 = X
  generalize val_main_v36 (F := Ideal) x1 = n
  have el : lidx_main_v39 i k = ix2 (Cert.Spec.rowOf i) k :=
    funext fun a => Fin.ext (by match a with | ⟨0, _⟩ => rfl | ⟨1, _⟩ => rfl)
  have er : ridx_main_v39 i k = ix2 k (Cert.Spec.colOf i) :=
    funext fun a => Fin.ext (by match a with | ⟨0, _⟩ => rfl | ⟨1, _⟩ => rfl)
  have en : idx_main_v37 (lidx_main_v39 i k) = ix2 (Cert.Spec.rowOf i) (0 : Fin 1) :=
    funext fun a => Fin.ext (by match a with | ⟨0, _⟩ => rfl | ⟨1, _⟩ => rfl)
  rw [en, el, er, Ideal.mulf_def]

theorem v56_eq : val_main_v56 (F := Ideal) x0 x1 x2 x4 x5 x6 x7
    = Cert.Spec.scaleBiasRelu (val_main_v49 (F := Ideal) x0 x1 x2 x4 x5 x6) (val_main_v50 (F := Ideal) x2) (val_main_v53 (F := Ideal) x7) := by
  funext i
  rw [val_main_v56_apply, val_main_v55_apply, val_main_v52_apply, val_main_v51_apply, val_main_v54_apply,
    val_main_call1_v0_apply, val_main_call1_cst_apply]
  unfold Cert.Spec.scaleBiasRelu
  generalize val_main_v49 (F := Ideal) x0 x1 x2 x4 x5 x6 = A
  generalize val_main_v50 (F := Ideal) x2 = n
  generalize val_main_v53 (F := Ideal) x7 = b
  have en : idx_main_v51 i = ix2 (Cert.Spec.rowOf i) (0 : Fin 1) :=
    funext fun a => Fin.ext (by match a with | ⟨0, _⟩ => rfl | ⟨1, _⟩ => rfl)
  have eb : idx_main_v54 i = ix2 (0 : Fin 1) (Cert.Spec.colOf i) :=
    funext fun a => Fin.ext (by match a with | ⟨0, _⟩ => rfl | ⟨1, _⟩ => rfl)
  rw [en, eb]
  simp only [Ideal.maximumf_def, Ideal.addf_def, Ideal.mulf_def, Ideal.ofBits_def]

theorem v71_eq : val_main_v71 (F := Ideal) x0 x1 x2 x4 x5 x6 x7 x8 x9
    = Cert.Spec.linearSoftmax (val_main_v56 (F := Ideal) x0 x1 x2 x4 x5 x6 x7) x8 (val_main_v58 (F := Ideal) x9) := by
  funext i
  rw [val_main_v71_apply, val_main_v70_apply, val_main_v69_apply, val_main_v68_apply, val_main_cst_13_apply,
    v67_eq, v60_eq]
  unfold Cert.Spec.linearSoftmax Cert.Spec.softmaxRows
  generalize Cert.Spec.shiftedExp (Cert.Spec.logits (val_main_v56 (F := Ideal) x0 x1 x2 x4 x5 x6 x7) x8 (val_main_v58 (F := Ideal) x9)) = E
  rw [Ideal.hostDivf_def, Ideal.ofBits_def, Ideal.ofBits_zero_f32, zero_add]
  refine congrArg (Ideal.div (E i)) (Finset.sum_congr rfl fun k _ => congrArg E ?_)
  exact funext fun a => Fin.ext (by match a with | ⟨0, _⟩ => rfl | ⟨1, _⟩ => rfl)

end Cert.ReferenceIdeal.RefStages

end
-- ==== Proof.Mask.lean ====
import proofs.«417617_j45045617001060_1_alg».proof.Defs
import proofs.«417617_j45045617001060_1_alg».proof.Proof.Gen.KernelIdeal
import proofs.«417617_j45045617001060_1_alg».proof.Proof.Gen.Pre_finite_inputs
import Idealize.ShloMosaic.Lib.StableHlo.Predicate
import Idealize.ShloMosaic.Lib.ReduceAll
import Idealize.ShloMosaic.Lib.ValueIdx
import Idealize.ShloMosaic.Lib.Pipeline.Value

set_option maxRecDepth 16384

noncomputable section

namespace Cert.KernelIdeal.Take

open Cert.KernelIdeal Cert.KernelIdeal.Gen
open Idealize.ShloMosaic Idealize.ShloMosaic.TcCoe Idealize.ShloMosaic.ValueIdx Idealize.SL.Sem

/-- Every source index lies in [0, 100000). -/
def SrcOk (src : IVec S1600000 32) : Prop :=
  ∀ e : S1600000.Idx, IntOp.cmpi .sge (src e) 0#32 = 1#1 ∧ IntOp.cmpi .slt (src e) 100000#32 = 1#1

/-- The row a gather-by-index reads: a negative index is wrapped once by the number of rows. -/
def wrapped (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The in-bounds mask of that gather, spread over the 64 columns: 0 ≤ wrapped index ≤ 99999. -/
def inBounds (src : IVec S1600000 32) : IVec S1600000x64 1 :=
  broadcastInDim S1600000x64 ![0] bcast_S1600000_S1600000x64_0
    (Host.reduce IntOp.andi
      (andi (cmpi .sge (wrapped src) (broadcastInDim S1600000x1 ![] bcast_S_S1600000x1 (constantI S_ 32 0#32)))
        (cmpi .sle (wrapped src)
          (broadcastInDim S1600000x1 ![0, 1] bcast_S1x1_S1600000x1_0_1 (broadcastInDim S1x1 ![1] bcast_S1_S1x1_1 (constantI S1 32 99999#32)))))
      (constantI S_ 1 1#1) reducesTo_S1600000x1_S1600000_d1 h_S_)

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi 1#1 (f a) = 1#1 := by rw [hf a]; rfl
    simp only [List.foldl_cons, e]
    exact foldl_andi_ones f hf l

/-- An and-reduce from 1 of an array that is 1 everywhere is 1 at every result index. -/
theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_ones x hx _

/-- A 32-bit word s with 0 ≤ s < 100000 signed is not negative, so the wrap keeps it, and it is at most 99999. -/
theorem word_in_range (s : BitVec 32) (h0 : IntOp.cmpi .sge s 0#32 = 1#1) (h1 : IntOp.cmpi .slt s 100000#32 = 1#1) :
    Scalar.select (IntOp.cmpi .slt s 0#32) (IntOp.addi s 100000#32) s = s ∧ IntOp.cmpi .sle s 99999#32 = 1#1 := by
  have a0 : (0#32 : BitVec 32).toInt = 0 := by decide
  have a1 : (100000#32 : BitVec 32).toInt = 100000 := by decide
  have a2 : (99999#32 : BitVec 32).toInt = 99999 := by decide
  simp only [IntOp.cmpi, StableHlo.Predicate.ofBool_eq_one_iff, BitVec.sle, BitVec.slt, decide_eq_true_eq, a0, a1] at h0 h1
  refine ⟨?_, ?_⟩
  · have hneg : IntOp.cmpi .slt s 0#32 = 0#1 := by
      simp only [IntOp.cmpi, BitVec.slt, a0]
      rw [decide_eq_false (by omega)]; rfl
    rw [hneg]; rfl
  · simp only [IntOp.cmpi, StableHlo.Predicate.ofBool_eq_one_iff, BitVec.sle, decide_eq_true_eq, a2]
    omega

/-- The wrapped index at a row is the wrap of the source word at some position. -/
theorem wrapped_apply (src : IVec S1600000 32) (k : S1600000x1.Idx) :
    ∃ e : S1600000.Idx, wrapped src k
      = Scalar.select (IntOp.cmpi .slt (src e) 0#32) (IntOp.addi (src e) 100000#32) (src e) :=
  ⟨_, rfl⟩

/-- With every index in range the mask is all ones. -/
theorem inBounds_eq_ones (src : IVec S1600000 32) (h : SrcOk src) : inBounds src = fun _ => 1#1 := by
  funext i
  refine reduce_andi_ones _ (fun k => ?_) _ _ _
  obtain ⟨e, he⟩ := wrapped_apply src k
  obtain ⟨hsel, hle⟩ := word_in_range (src e) (h e).1 (h e).2
  show IntOp.andi (IntOp.cmpi .sge (wrapped src k) 0#32) (IntOp.cmpi .sle (wrapped src k) 99999#32) = 1#1
  rw [he, hsel, (h e).1, hle]; rfl

/-- So the masked gather is the plain gather: nothing is replaced by the fill value. -/
theorem select_inBounds (src : IVec S1600000 32) (h : SrcOk src) (g fill : FVec Ideal S1600000x64 .f32) :
    select (inBounds src) g fill = g := by
  rw [inBounds_eq_ones src h]
  funext i
  show (if (1#1 : BitVec 1) = 1 then g i else fill i) = g i
  exact if_pos rfl

/-- The precondition puts every source index in range. -/
theorem srcOk_of_pre (m : (ℓ : Loc nD τ sig) → Buf (Elt Ideal) ℓ) (hpre : Cert.Pre_KernelIdeal m) (c : Dev nD) :
    SrcOk (m ((c.tc : Thread nD τ).loc main_arg1)) := by
  have hS : Subsingleton Cert.Pre_finite_inputs.S_.Idx := ⟨fun a b => funext fun d => d.elim0⟩
  have h0 := congrFun (hpre c) ValueIdx.ix0
  unfold Cert.Pre_finite_inputs.fn Cert.Pre_finite_inputs.fn_part1 Cert.Pre_finite_inputs.fn_part2 at h0
  dsimp only at h0
  obtain ⟨h1, hlt⟩ := IntOp.andi_eq_one.1 h0
  obtain ⟨-, hge⟩ := IntOp.andi_eq_one.1 h1
  intro e
  exact ⟨Host.reduce_andi_all _ _ _ _ _ hge e, Host.reduce_andi_all _ _ _ _ _ hlt e⟩

end Cert.KernelIdeal.Take

end
-- ==== Proof.Layout.lean ====
/-
  A reshape that only adds a unit axis is the broadcast along the kept axis: the same entries under another index.
-/
import Idealize.ShloMosaic.Lib.Pipeline.Value
import Idealize.ShloMosaic.Lib.ValueIdx
import Idealize.ShloMosaic.Lib.ValueLayout

noncomputable section

namespace Cert.Spec.Layout

open Idealize.ShloMosaic Idealize.ShloMosaic.ValueIdx

variable {α : Type}

/-- [100000] → [100000, 1]: a column. -/
theorem reshape_col (v : (⟨1, ![100000]⟩ : Shape).Idx → α)
    (h : Shape.ShapeCasts ⟨1, ![100000]⟩ ⟨2, ![100000, 1]⟩)
    (hb : Shape.BroadcastsInDim (⟨1, ![100000]⟩ : Shape) (⟨2, ![100000, 1]⟩ : Shape) ![0]) :
    shapeCast (⟨2, ![100000, 1]⟩ : Shape) v h = broadcastInDim (⟨2, ![100000, 1]⟩ : Shape) ![0] hb v := by
  funext j
  have h1 : (j 1).val < 1 := (j 1).isLt
  rw [shapeCast_apply v h j (ix1 (⟨(j 0).val, (j 0).isLt⟩ : Fin 100000)) (by
        rw [Shape.rowMajor_val_one, Shape.rowMajor_val_two]
        show (j 0).val = (j 0).val * 1 + (j 1).val
        omega),
    broadcastInDim_apply ![0] hb v j (ix1 (⟨(j 0).val, (j 0).isLt⟩ : Fin 100000)) (fun a => match a with
      | ⟨0, _⟩ => by show (j 0).val = if (100000 : Nat) = 1 then 0 else (j 0).val; rw [if_neg (by decide)])]

/-- [64] → [1, 64]: a row. -/
theorem reshape_row64 (v : (⟨1, ![64]⟩ : Shape).Idx → α)
    (h : Shape.ShapeCasts ⟨1, ![64]⟩ ⟨2, ![1, 64]⟩)
    (hb : Shape.BroadcastsInDim (⟨1, ![64]⟩ : Shape) (⟨2, ![1, 64]⟩ : Shape) ![1]) :
    shapeCast (⟨2, ![1, 64]⟩ : Shape) v h = broadcastInDim (⟨2, ![1, 64]⟩ : Shape) ![1] hb v := by
  funext j
  have h0 : (j 0).val < 1 := (j 0).isLt
  rw [shapeCast_apply v h j (ix1 (⟨(j 1).val, (j 1).isLt⟩ : Fin 64)) (by
        rw [Shape.rowMajor_val_one, Shape.rowMajor_val_two]
        show (j 1).val = (j 0).val * 64 + (j 1).val
        omega),
    broadcastInDim_apply ![1] hb v j (ix1 (⟨(j 1).val, (j 1).isLt⟩ : Fin 64)) (fun a => match a with
      | ⟨0, _⟩ => by show (j 1).val = if (64 : Nat) = 1 then 0 else (j 1).val; rw [if_neg (by decide)])]

/-- [8] → [1, 8]: a row. -/
theorem reshape_row8 (v : (⟨1, ![8]⟩ : Shape).Idx → α)
    (h : Shape.ShapeCasts ⟨1, ![8]⟩ ⟨2, ![1, 8]⟩)
    (hb : Shape.BroadcastsInDim (⟨1, ![8]⟩ : Shape) (⟨2, ![1, 8]⟩ : Shape) ![1]) :
    shapeCast (⟨2, ![1, 8]⟩ : Shape) v h = broadcastInDim (⟨2, ![1, 8]⟩ : Shape) ![1] hb v := by
  funext j
  have h0 : (j 0).val < 1 := (j 0).isLt
  rw [shapeCast_apply v h j (ix1 (⟨(j 1).val, (j 1).isLt⟩ : Fin 8)) (by
        rw [Shape.rowMajor_val_one, Shape.rowMajor_val_two]
        show (j 1).val = (j 0).val * 8 + (j 1).val
        omega),
    broadcastInDim_apply ![1] hb v j (ix1 (⟨(j 1).val, (j 1).isLt⟩ : Fin 8)) (fun a => match a with
      | ⟨0, _⟩ => by show (j 1).val = if (8 : Nat) = 1 then 0 else (j 1).val; rw [if_neg (by decide)])]

end Cert.Spec.Layout

end
-- ==== Proof.Carry.lean ====
import proofs.«417617_j45045617001060_1_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! Between the two boundaries its statement names, each buffer below is written by no host operation and by no
    region: a stretch of host operations that does not list it leaves it alone, a region that does not hold it among
    its arrays leaves it alone, and a region that holds it as an input array leaves it as entered. So it holds at the
    later boundary what it held at the earlier one, and an argument's walk ends at the launch memory. -/

/-- A stretch of host operations none of which writes the buffer leaves it as it was. -/
local macro "host_skip% " b:ident ops:ident : term =>
  `(StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

theorem c_arg0_1 (c : Dev nD) : W1 (F := F) m ρ c (Proc.devRef .tc main_arg0) = m ((c : Thread nD τ).loc main_arg0) := by
  calc W1 (F := F) m ρ c (Proc.devRef .tc main_arg0)
    _ = W0 (F := F) m ρ c (Proc.devRef .tc main_arg0) := host_skip% main_arg0 hostOps0
    _ = m ((c : Thread nD τ).loc main_arg0) := rfl

theorem c_arg4_1 (c : Dev nD) : W1 (F := F) m ρ c (Proc.devRef .tc main_arg4) = m ((c : Thread nD τ).loc main_arg4) := by
  calc W1 (F := F) m ρ c (Proc.devRef .tc main_arg4)
    _ = W0 (F := F) m ρ c (Proc.devRef .tc main_arg4) := host_skip% main_arg4 hostOps0
    _ = m ((c : Thread nD τ).loc main_arg4) := rfl

theorem c_arg1_2 (c : Dev nD) : W2 (F := F) m ρ c (Proc.devRef .tc main_arg1) = m ((c : Thread nD τ).loc main_arg1) := by
  -- region 0 does not hold the index array
  calc W2 (F := F) m ρ c (Proc.devRef .tc main_arg1)
    _ = W1 (F := F) m ρ c (Proc.devRef .tc main_arg1) := W2_of_ne m ρ c main_arg1 (by decide)
    _ = W0 (F := F) m ρ c (Proc.devRef .tc main_arg1) := host_skip% main_arg1 hostOps0
    _ = m ((c : Thread nD τ).loc main_arg1) := rfl

theorem c_arg2_3 (c : Dev nD) : W3 (F := F) m ρ c (Proc.devRef .tc main_arg2) = m ((c : Thread nD τ).loc main_arg2) := by
  calc W3 (F := F) m ρ c (Proc.devRef .tc main_arg2)
    _ = W2 (F := F) m ρ c (Proc.devRef .tc main_arg2) := host_skip% main_arg2 hostOps1
    _ = W1 (F := F) m ρ c (Proc.devRef .tc main_arg2) := W2_of_ne m ρ c main_arg2 (by decide)
    _ = W0 (F := F) m ρ c (Proc.devRef .tc main_arg2) := host_skip% main_arg2 hostOps0
    _ = m ((c : Thread nD τ).loc main_arg2) := rfl

theorem c_arg5_3 (c : Dev nD) : W3 (F := F) m ρ c (Proc.devRef .tc main_arg5) = m ((c : Thread nD τ).loc main_arg5) := by
  calc W3 (F := F) m ρ c (Proc.devRef .tc main_arg5)
    _ = W2 (F := F) m ρ c (Proc.devRef .tc main_arg5) := host_skip% main_arg5 hostOps1
    _ = W1 (F := F) m ρ c (Proc.devRef .tc main_arg5) := W2_of_ne m ρ c main_arg5 (by decide)
    _ = W0 (F := F) m ρ c (Proc.devRef .tc main_arg5) := host_skip% main_arg5 hostOps0
    _ = m ((c : Thread nD τ).loc main_arg5) := rfl

theorem c_v16_4 (c : Dev nD) : W4 (F := F) m ρ c (Proc.devRef .tc main_v16) = W1 (F := F) m ρ c (Proc.devRef .tc main_v16) := by
  -- made before region 0, which does not hold it; the two stretches before region 1 do not write it
  calc W4 (F := F) m ρ c (Proc.devRef .tc main_v16)
    _ = W3 (F := F) m ρ c (Proc.devRef .tc main_v16) := host_skip% main_v16 hostOps1_1
    _ = W2 (F := F) m ρ c (Proc.devRef .tc main_v16) := host_skip% main_v16 hostOps1
    _ = W1 (F := F) m ρ c (Proc.devRef .tc main_v16) := W2_of_ne m ρ c main_v16 (by decide)

theorem c_v15_5 (c : Dev nD) : W5 (F := F) m ρ c (Proc.devRef .tc main_v15) = W1 (F := F) m ρ c (Proc.devRef .tc main_v15) := by
  -- region 1 does not hold it; region 0 reads it through input window 1
  calc W5 (F := F) m ρ c (Proc.devRef .tc main_v15)
    _ = W4 (F := F) m ρ c (Proc.devRef .tc main_v15) := W5_of_ne m ρ c main_v15 (by decide)
    _ = W3 (F := F) m ρ c (Proc.devRef .tc main_v15) := host_skip% main_v15 hostOps1_1
    _ = W2 (F := F) m ρ c (Proc.devRef .tc main_v15) := host_skip% main_v15 hostOps1
    _ = W1 (F := F) m ρ c (Proc.devRef .tc main_v15) :=
      (W2_arr m ρ c 1).trans (((dat0 (V1 m ρ) c).arrAt_in 1 rfl _).trans (A_eq0 (V1 m ρ) c 1))

theorem c_arg6_5 (c : Dev nD) : W5 (F := F) m ρ c (Proc.devRef .tc main_arg6) = m ((c : Thread nD τ).loc main_arg6) := by
  calc W5 (F := F) m ρ c (Proc.devRef .tc main_arg6)
    _ = W4 (F := F) m ρ c (Proc.devRef .tc main_arg6) := W5_of_ne m ρ c main_arg6 (by decide)
    _ = W3 (F := F) m ρ c (Proc.devRef .tc main_arg6) := host_skip% main_arg6 hostOps1_1
    _ = W2 (F := F) m ρ c (Proc.devRef .tc main_arg6) := host_skip% main_arg6 hostOps1
    _ = W1 (F := F) m ρ c (Proc.devRef .tc main_arg6) := W2_of_ne m ρ c main_arg6 (by decide)
    _ = W0 (F := F) m ρ c (Proc.devRef .tc main_arg6) := host_skip% main_arg6 hostOps0
    _ = m ((c : Thread nD τ).loc main_arg6) := rfl

theorem c_arg1_6 (c : Dev nD) : W6 (F := F) m ρ c (Proc.devRef .tc main_arg1) = m ((c : Thread nD τ).loc main_arg1) := by
  -- regions 1 and 2 do not hold the index array; from region 0's exit back it is the walk above
  calc W6 (F := F) m ρ c (Proc.devRef .tc main_arg1)
    _ = W5 (F := F) m ρ c (Proc.devRef .tc main_arg1) := W6_of_ne m ρ c main_arg1 (by decide)
    _ = W4 (F := F) m ρ c (Proc.devRef .tc main_arg1) := W5_of_ne m ρ c main_arg1 (by decide)
    _ = W3 (F := F) m ρ c (Proc.devRef .tc main_arg1) := host_skip% main_arg1 hostOps1_1
    _ = W2 (F := F) m ρ c (Proc.devRef .tc main_arg1) := host_skip% main_arg1 hostOps1
    _ = m ((c : Thread nD τ).loc main_arg1) := c_arg1_2 m ρ c

theorem c_arg2_7 (c : Dev nD) : W7 (F := F) m ρ c (Proc.devRef .tc main_arg2) = m ((c : Thread nD τ).loc main_arg2) := by
  calc W7 (F := F) m ρ c (Proc.devRef .tc main_arg2)
    _ = W6 (F := F) m ρ c (Proc.devRef .tc main_arg2) := host_skip% main_arg2 hostOps3
    _ = W5 (F := F) m ρ c (Proc.devRef .tc main_arg2) := W6_of_ne m ρ c main_arg2 (by decide)
    _ = W4 (F := F) m ρ c (Proc.devRef .tc main_arg2) := W5_of_ne m ρ c main_arg2 (by decide)
    _ = W3 (F := F) m ρ c (Proc.devRef .tc main_arg2) := host_skip% main_arg2 hostOps1_1
    _ = m ((c : Thread nD τ).loc main_arg2) := c_arg2_3 m ρ c

theorem c_arg7_7 (c : Dev nD) : W7 (F := F) m ρ c (Proc.devRef .tc main_arg7) = m ((c : Thread nD τ).loc main_arg7) := by
  calc W7 (F := F) m ρ c (Proc.devRef .tc main_arg7)
    _ = W6 (F := F) m ρ c (Proc.devRef .tc main_arg7) := host_skip% main_arg7 hostOps3
    _ = W5 (F := F) m ρ c (Proc.devRef .tc main_arg7) := W6_of_ne m ρ c main_arg7 (by decide)
    _ = W4 (F := F) m ρ c (Proc.devRef .tc main_arg7) := W5_of_ne m ρ c main_arg7 (by decide)
    _ = W3 (F := F) m ρ c (Proc.devRef .tc main_arg7) := host_skip% main_arg7 hostOps1_1
    _ = W2 (F := F) m ρ c (Proc.devRef .tc main_arg7) := host_skip% main_arg7 hostOps1
    _ = W1 (F := F) m ρ c (Proc.devRef .tc main_arg7) := W2_of_ne m ρ c main_arg7 (by decide)
    _ = W0 (F := F) m ρ c (Proc.devRef .tc main_arg7) := host_skip% main_arg7 hostOps0
    _ = m ((c : Thread nD τ).loc main_arg7) := rfl

theorem c_v16_8 (c : Dev nD) : W8 (F := F) m ρ c (Proc.devRef .tc main_v16) = W1 (F := F) m ρ c (Proc.devRef .tc main_v16) := by
  -- region 2 does not hold it; region 1 reads it through input window 1; before region 1 it is the walk above
  calc W8 (F := F) m ρ c (Proc.devRef .tc main_v16)
    _ = W7 (F := F) m ρ c (Proc.devRef .tc main_v16) := host_skip% main_v16 hostOps3_1
    _ = W6 (F := F) m ρ c (Proc.devRef .tc main_v16) := host_skip% main_v16 hostOps3
    _ = W5 (F := F) m ρ c (Proc.devRef .tc main_v16) := W6_of_ne m ρ c main_v16 (by decide)
    _ = W4 (F := F) m ρ c (Proc.devRef .tc main_v16) :=
      (W5_arr m ρ c 1).trans (((dat1 (V4 m ρ) c).arrAt_in 1 rfl _).trans (A_eq1 (V4 m ρ) c 1))
    _ = W1 (F := F) m ρ c (Proc.devRef .tc main_v16) := c_v16_4 m ρ c

theorem c_arg9_9 (c : Dev nD) : W9 (F := F) m ρ c (Proc.devRef .tc main_arg9) = m ((c : Thread nD τ).loc main_arg9) := by
  calc W9 (F := F) m ρ c (Proc.devRef .tc main_arg9)
    _ = W8 (F := F) m ρ c (Proc.devRef .tc main_arg9) := W9_of_ne m ρ c main_arg9 (by decide)
    _ = W7 (F := F) m ρ c (Proc.devRef .tc main_arg9) := host_skip% main_arg9 hostOps3_1
    _ = W6 (F := F) m ρ c (Proc.devRef .tc main_arg9) := host_skip% main_arg9 hostOps3
    _ = W5 (F := F) m ρ c (Proc.devRef .tc main_arg9) := W6_of_ne m ρ c main_arg9 (by decide)
    _ = W4 (F := F) m ρ c (Proc.devRef .tc main_arg9) := W5_of_ne m ρ c main_arg9 (by decide)
    _ = W3 (F := F) m ρ c (Proc.devRef .tc main_arg9) := host_skip% main_arg9 hostOps1_1
    _ = W2 (F := F) m ρ c (Proc.devRef .tc main_arg9) := host_skip% main_arg9 hostOps1
    _ = W1 (F := F) m ρ c (Proc.devRef .tc main_arg9) := W2_of_ne m ρ c main_arg9 (by decide)
    _ = W0 (F := F) m ρ c (Proc.devRef .tc main_arg9) := host_skip% main_arg9 hostOps0
    _ = m ((c : Thread nD τ).loc main_arg9) := rfl

theorem c_arg8_10 (c : Dev nD) : W10 (F := F) m ρ c (Proc.devRef .tc main_arg8) = m ((c : Thread nD τ).loc main_arg8) := by
  calc W10 (F := F) m ρ c (Proc.devRef .tc main_arg8)
    _ = W9 (F := F) m ρ c (Proc.devRef .tc main_arg8) := host_skip% main_arg8 hostOps4
    _ = W8 (F := F) m ρ c (Proc.devRef .tc main_arg8) := W9_of_ne m ρ c main_arg8 (by decide)
    _ = W7 (F := F) m ρ c (Proc.devRef .tc main_arg8) := host_skip% main_arg8 hostOps3_1
    _ = W6 (F := F) m ρ c (Proc.devRef .tc main_arg8) := host_skip% main_arg8 hostOps3
    _ = W5 (F := F) m ρ c (Proc.devRef .tc main_arg8) := W6_of_ne m ρ c main_arg8 (by decide)
    _ = W4 (F := F) m ρ c (Proc.devRef .tc main_arg8) := W5_of_ne m ρ c main_arg8 (by decide)
    _ = W3 (F := F) m ρ c (Proc.devRef .tc main_arg8) := host_skip% main_arg8 hostOps1_1
    _ = W2 (F := F) m ρ c (Proc.devRef .tc main_arg8) := host_skip% main_arg8 hostOps1
    _ = W1 (F := F) m ρ c (Proc.devRef .tc main_arg8) := W2_of_ne m ρ c main_arg8 (by decide)
    _ = W0 (F := F) m ρ c (Proc.devRef .tc main_arg8) := host_skip% main_arg8 hostOps0
    _ = m ((c : Thread nD τ).loc main_arg8) := rfl

theorem c_v30_10 (c : Dev nD) : W10 (F := F) m ρ c (Proc.devRef .tc main_v30) = W9 (F := F) m ρ c (Proc.devRef .tc main_v30) := by
  -- region 3's output crosses only the last stretch of host operations, which does not write it
  calc W10 (F := F) m ρ c (Proc.devRef .tc main_v30)
    _ = W9 (F := F) m ρ c (Proc.devRef .tc main_v30) := host_skip% main_v30 hostOps4

end Cert.KernelIdeal.Carry

end
-- ==== Proof.KChain.lean ====
import proofs.«417617_j45045617001060_1_alg».proof.Proof.Gen.KernelIdeal.Frame
import proofs.«417617_j45045617001060_1_alg».proof.Proof.Gen.ReferenceIdeal.Read
import proofs.«417617_j45045617001060_1_alg».proof.Proof.Spec
import proofs.«417617_j45045617001060_1_alg».proof.Proof.Reg0
import proofs.«417617_j45045617001060_1_alg».proof.Proof.Reg1
import proofs.«417617_j45045617001060_1_alg».proof.Proof.Reg2
import proofs.«417617_j45045617001060_1_alg».proof.Proof.Reg3
import proofs.«417617_j45045617001060_1_alg».proof.Proof.Reg4
import proofs.«417617_j45045617001060_1_alg».proof.Proof.RefStages
import proofs.«417617_j45045617001060_1_alg».proof.Proof.Mask
import proofs.«417617_j45045617001060_1_alg».proof.Proof.Layout
import proofs.«417617_j45045617001060_1_alg».proof.Proof.Carry
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! The contents of the program's buffers at each boundary of its fold, read forward from the launch: every buffer a
    later stage reads holds the matching stage of the reference, as a function of the argument arrays. The host
    stretches between the regions apply the same gather and the same accumulating scatter as the reference to values
    already identified, so those are carried as they stand; each region's output array is its whole-array function of
    the region's inputs; and under the precondition the gather's in-range mask is all ones. -/

/-- Reading a value back through the same typed reference returns it. -/
theorem ofBuf_toBuf {T : BufTy} (x : TRef sig T) (v : T.Contents (Elt Ideal)) : x.ofBuf (x.toBuf v) = v := by
  obtain ⟨r, h, hd, hs⟩ := x
  subst h
  rfl

set_option maxHeartbeats 4000000 in
/-- What the first gather-by-index stretch leaves in its result, over any contents it starts from: the rows gathered at
    the wrapped indices, a row replaced by the fill value where its index is out of range. -/
theorem take1 (W : Valuation τ sig (Elt Ideal)) :
    StableHlo.after hostOps1 W (Proc.devRef .tc main_v18)
      = select (Cert.KernelIdeal.Take.inBounds (W (Proc.devRef .tc main_arg1)))
          (Host.gather gather_S100000x64_S1600000x1_S1600000x64_1_0_n_n_0_1_164 (W (Proc.devRef .tc main_v17))
            (Cert.KernelIdeal.Take.wrapped (W (Proc.devRef .tc main_arg1))))
          (broadcastInDim S1600000x64 ![] bcast_S_S1600000x64 (constant (F := Ideal) S_ .f32 0x7FC00000#32)) := by
  after_results
  simp only [ofBuf_toBuf]
  unfold Cert.KernelIdeal.Take.inBounds Cert.KernelIdeal.Take.wrapped
  have e1 : (TRef.of (T := ⟨S1600000, .i32⟩) main_arg1).ofBuf (W (Proc.devRef .tc main_arg1)) = W (Proc.devRef .tc main_arg1) :=
    cast_eq _ _
  have e2 : (TRef.of (T := ⟨S100000x64, .f32⟩) main_v17).ofBuf (W (Proc.devRef .tc main_v17)) = W (Proc.devRef .tc main_v17) :=
    cast_eq _ _
  rw [e1, e2]
  exact cast_eq _ _

set_option maxHeartbeats 4000000 in
/-- The same for the second gather-by-index stretch. -/
theorem take2 (W : Valuation τ sig (Elt Ideal)) :
    StableHlo.after hostOps3 W (Proc.devRef .tc main_v25)
      = select (Cert.KernelIdeal.Take.inBounds (W (Proc.devRef .tc main_arg1)))
          (Host.gather gather_S100000x64_S1600000x1_S1600000x64_1_0_n_n_0_1_164 (W (Proc.devRef .tc main_v24))
            (Cert.KernelIdeal.Take.wrapped (W (Proc.devRef .tc main_arg1))))
          (broadcastInDim S1600000x64 ![] bcast_S_S1600000x64 (constant (F := Ideal) S_ .f32 0x7FC00000#32)) := by
  after_results
  simp only [ofBuf_toBuf]
  unfold Cert.KernelIdeal.Take.inBounds Cert.KernelIdeal.Take.wrapped
  have e1 : (TRef.of (T := ⟨S1600000, .i32⟩) main_arg1).ofBuf (W (Proc.devRef .tc main_arg1)) = W (Proc.devRef .tc main_arg1) :=
    cast_eq _ _
  have e2 : (TRef.of (T := ⟨S100000x64, .f32⟩) main_v24).ofBuf (W (Proc.devRef .tc main_v24)) = W (Proc.devRef .tc main_v24) :=
    cast_eq _ _
  rw [e1, e2]
  exact cast_eq _ _

variable (c : Dev nD)

/-- The source-side scale as a column: the reshape of the degree norm is its broadcast. -/
theorem v15_1 : W1 (F := Ideal) m ρ c (Proc.devRef .tc main_v15)
    = Cert.ReferenceIdeal.Read.val_main_v15 (F := Ideal) (m ((c : Thread nD τ).loc main_arg1)) := by
  show StableHlo.after hostOps0 _ (Proc.devRef .tc main_v15) = _
  after_results
  exact Cert.Spec.Layout.reshape_col _ _ _

/-- The destination-side scale as a column. -/
theorem v16_1 : W1 (F := Ideal) m ρ c (Proc.devRef .tc main_v16)
    = Cert.ReferenceIdeal.Read.val_main_v29 (F := Ideal) (m ((c : Thread nD τ).loc main_arg2)) := by
  show StableHlo.after hostOps0 _ (Proc.devRef .tc main_v16) = _
  after_results
  exact Cert.Spec.Layout.reshape_col _ _ _

/-- Region 0's output: the first layer's scaled product. -/
theorem v17_2 : W2 (F := Ideal) m ρ c (Proc.devRef .tc main_v17)
    = Cert.ReferenceIdeal.Read.val_main_v18 (F := Ideal) (m ((c : Thread nD τ).loc main_arg0)) (m ((c : Thread nD τ).loc main_arg1)) (m ((c : Thread nD τ).loc main_arg4)) := by
  refine (W2_arr m ρ c 3).trans ?_
  refine (Cert.KernelIdeal.RegVal.reg0_val (V1 m ρ) c).trans ?_
  rw [Cert.ReferenceIdeal.RefStages.v18_eq]
  show Cert.Spec.scaleMatmul128 (W1 m ρ c (Proc.devRef .tc main_arg0)) (W1 m ρ c (Proc.devRef .tc main_v15))
    (W1 m ρ c (Proc.devRef .tc main_arg4)) = _
  rw [Cert.KernelIdeal.Carry.c_arg0_1, v15_1, Cert.KernelIdeal.Carry.c_arg4_1]

/-- The first gather of rows: with every index in range nothing is replaced by the fill value. -/
theorem v18_3 (hpre : Cert.Pre_KernelIdeal m) : W3 (F := Ideal) m ρ c (Proc.devRef .tc main_v18)
    = Cert.ReferenceIdeal.Read.val_main_v25 (F := Ideal) (m ((c : Thread nD τ).loc main_arg0)) (m ((c : Thread nD τ).loc main_arg1)) (m ((c : Thread nD τ).loc main_arg4)) := by
  refine (take1 (W2 m ρ c)).trans ?_
  rw [Cert.KernelIdeal.Carry.c_arg1_2, v17_2]
  exact Cert.KernelIdeal.Take.select_inBounds _ (Cert.KernelIdeal.Take.srcOk_of_pre m hpre c) _ _

/-- The first accumulation over destinations. -/
theorem v21_4 (hpre : Cert.Pre_KernelIdeal m) : W4 (F := Ideal) m ρ c (Proc.devRef .tc main_v21)
    = Cert.ReferenceIdeal.Read.val_main_v28 (F := Ideal) (m ((c : Thread nD τ).loc main_arg0)) (m ((c : Thread nD τ).loc main_arg1)) (m ((c : Thread nD τ).loc main_arg2)) (m ((c : Thread nD τ).loc main_arg4)) := by
  show StableHlo.after hostOps1_1 (W3 m ρ c) (Proc.devRef .tc main_v21) = _
  generalize hW : W3 (F := Ideal) m ρ c = Wv
  after_results
  subst hW
  rw [Cert.KernelIdeal.Carry.c_arg2_3, v18_3 m ρ c hpre]
  rfl

/-- The first bias as a row. -/
theorem v22_4 : W4 (F := Ideal) m ρ c (Proc.devRef .tc main_v22)
    = Cert.ReferenceIdeal.Read.val_main_v32 (F := Ideal) (m ((c : Thread nD τ).loc main_arg5)) := by
  show StableHlo.after hostOps1_1 (W3 m ρ c) (Proc.devRef .tc main_v22) = _
  generalize hW : W3 (F := Ideal) m ρ c = Wv
  after_results
  subst hW
  rw [Cert.KernelIdeal.Carry.c_arg5_3]
  exact Cert.Spec.Layout.reshape_row64 _ _ _

/-- Region 1's output: the first layer's activations. -/
theorem v23_5 (hpre : Cert.Pre_KernelIdeal m) : W5 (F := Ideal) m ρ c (Proc.devRef .tc main_v23)
    = Cert.ReferenceIdeal.Read.val_main_v35 (F := Ideal) (m ((c : Thread nD τ).loc main_arg0)) (m ((c : Thread nD τ).loc main_arg1)) (m ((c : Thread nD τ).loc main_arg2)) (m ((c : Thread nD τ).loc main_arg4)) (m ((c : Thread nD τ).loc main_arg5)) := by
  refine (W5_arr m ρ c 3).trans ?_
  refine (Cert.KernelIdeal.RegVal.reg1_val (V4 m ρ) c).trans ?_
  rw [Cert.ReferenceIdeal.RefStages.v35_eq]
  show Cert.Spec.scaleBiasRelu (W4 m ρ c (Proc.devRef .tc main_v21)) (W4 m ρ c (Proc.devRef .tc main_v16))
    (W4 m ρ c (Proc.devRef .tc main_v22)) = _
  rw [v21_4 m ρ c hpre, Cert.KernelIdeal.Carry.c_v16_4, v16_1, v22_4]

/-- Region 2's output: the second layer's scaled product. -/
theorem v24_6 (hpre : Cert.Pre_KernelIdeal m) : W6 (F := Ideal) m ρ c (Proc.devRef .tc main_v24)
    = Cert.ReferenceIdeal.Read.val_main_v39 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (W6_arr m ρ c 3).trans ?_
  refine (Cert.KernelIdeal.RegVal.reg2_val (V5 m ρ) c).trans ?_
  rw [Cert.ReferenceIdeal.RefStages.v39_eq]
  show Cert.Spec.scaleMatmul64 (W5 m ρ c (Proc.devRef .tc main_v23)) (W5 m ρ c (Proc.devRef .tc main_v15))
    (W5 m ρ c (Proc.devRef .tc main_arg6)) = _
  rw [v23_5 m ρ c hpre, Cert.KernelIdeal.Carry.c_v15_5, v15_1, Cert.KernelIdeal.Carry.c_arg6_5]
  rfl

/-- The second gather of rows. -/
theorem v25_7 (hpre : Cert.Pre_KernelIdeal m) : W7 (F := Ideal) m ρ c (Proc.devRef .tc main_v25)
    = Cert.ReferenceIdeal.Read.val_main_v46 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  refine (take2 (W6 m ρ c)).trans ?_
  rw [Cert.KernelIdeal.Carry.c_arg1_6, v24_6 m ρ c hpre]
  exact Cert.KernelIdeal.Take.select_inBounds _ (Cert.KernelIdeal.Take.srcOk_of_pre m hpre c) _ _

/-- The second accumulation over destinations. -/
theorem v28_8 (hpre : Cert.Pre_KernelIdeal m) : W8 (F := Ideal) m ρ c (Proc.devRef .tc main_v28)
    = Cert.ReferenceIdeal.Read.val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) := by
  show StableHlo.after hostOps3_1 (W7 m ρ c) (Proc.devRef .tc main_v28) = _
  generalize hW : W7 (F := Ideal) m ρ c = Wv
  after_results
  subst hW
  rw [Cert.KernelIdeal.Carry.c_arg2_7, v25_7 m ρ c hpre]
  rfl

/-- The second bias as a row. -/
theorem v29_8 : W8 (F := Ideal) m ρ c (Proc.devRef .tc main_v29)
    = Cert.ReferenceIdeal.Read.val_main_v53 (F := Ideal) (m ((c : Thread nD τ).loc main_arg7)) := by
  show StableHlo.after hostOps3_1 (W7 m ρ c) (Proc.devRef .tc main_v29) = _
  generalize hW : W7 (F := Ideal) m ρ c = Wv
  after_results
  subst hW
  rw [Cert.KernelIdeal.Carry.c_arg7_7]
  exact Cert.Spec.Layout.reshape_row64 _ _ _

/-- Region 3's output: the second layer's activations. -/
theorem v30_9 (hpre : Cert.Pre_KernelIdeal m) : W9 (F := Ideal) m ρ c (Proc.devRef .tc main_v30)
    = Cert.ReferenceIdeal.Read.val_main_v56 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W9_arr m ρ c 3).trans ?_
  refine (Cert.KernelIdeal.RegVal.reg3_val (V8 m ρ) c).trans ?_
  rw [Cert.ReferenceIdeal.RefStages.v56_eq]
  show Cert.Spec.scaleBiasRelu (W8 m ρ c (Proc.devRef .tc main_v28)) (W8 m ρ c (Proc.devRef .tc main_v16))
    (W8 m ρ c (Proc.devRef .tc main_v29)) = _
  rw [v28_8 m ρ c hpre, Cert.KernelIdeal.Carry.c_v16_8, v16_1, v29_8]
  rfl

/-- The head's bias as a row. -/
theorem v31_10 : W10 (F := Ideal) m ρ c (Proc.devRef .tc main_v31)
    = Cert.ReferenceIdeal.Read.val_main_v58 (F := Ideal) (m ((c : Thread nD τ).loc main_arg9)) := by
  show StableHlo.after hostOps4 _ (Proc.devRef .tc main_v31) = _
  after_results
  rw [Cert.KernelIdeal.Carry.c_arg9_9]
  exact Cert.Spec.Layout.reshape_row8 _ _ _

/-- Region 4's output, the program's result: the reference's last stage of the argument arrays. -/
theorem v32_11 (hpre : Cert.Pre_KernelIdeal m) : W11 (F := Ideal) m ρ c (Proc.devRef .tc main_v32)
    = Cert.ReferenceIdeal.Read.val_main_v71 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W11_arr m ρ c 3).trans ?_
  refine (Cert.KernelIdeal.RegVal.reg4_val (V10 m ρ) c).trans ?_
  rw [Cert.ReferenceIdeal.RefStages.v71_eq]
  show Cert.Spec.linearSoftmax (W10 m ρ c (Proc.devRef .tc main_v30)) (W10 m ρ c (Proc.devRef .tc main_arg8))
    (W10 m ρ c (Proc.devRef .tc main_v31)) = _
  rw [Cert.KernelIdeal.Carry.c_v30_10, v30_9 m ρ c hpre, Cert.KernelIdeal.Carry.c_arg8_10, v31_10]

end Cert.KernelIdeal.Chain

end
-- ==== Proof.lean ====
/-
  A two-layer graph convolution with a softmax head, against its array-program reference, over the extended reals.

  With n_src = max(out-degree, 1)^(-1/2) and n_dst = max(in-degree, 1)^(-1/2) (degrees counted by an accumulating
  scatter of ones), each layer is  H = (X ⊙ n_src) · W,  M = H gathered at the edges' sources,  A = M accumulated at
  the edges' destinations,  X' = max (A ⊙ n_dst + b) 0;  the head is the row softmax of X'' · Wp + bp.

  The program computes the three dense stages of each kind block by block (20 blocks of 5000 rows) and the gather and
  the accumulation between them by the same whole-array operations as the reference. Each block-wise stage is the
  whole-array stage, entry by entry: a row of the output depends only on the same row of the input, so no law of
  arithmetic is needed beyond reading both sides at an index. The one place the two programs differ is the gather: the
  program replaces a row whose source index is out of range by a fill value, the reference clamps the index; under
  the precondition every source index lies in [0, 100000), so the in-range mask is all ones and both read the same row.
-/
import proofs.«417617_j45045617001060_1_alg».proof.Defs
import proofs.«417617_j45045617001060_1_alg».proof.Proof.Gen.Kernel
import proofs.«417617_j45045617001060_1_alg».proof.Proof.Gen.Kernel.Frame
import proofs.«417617_j45045617001060_1_alg».proof.Proof.Gen.KernelIdeal
import proofs.«417617_j45045617001060_1_alg».proof.Proof.Gen.KernelIdeal.Frame
import proofs.«417617_j45045617001060_1_alg».proof.Proof.Gen.ReferenceIdeal
import proofs.«417617_j45045617001060_1_alg».proof.Proof.Gen.ReferenceIdeal.Run
import proofs.«417617_j45045617001060_1_alg».proof.Proof.Gen.ReferenceIdeal.Read
import proofs.«417617_j45045617001060_1_alg».proof.Proof.Gen.Pre_finite_inputs
import proofs.«417617_j45045617001060_1_alg».proof.Proof.KRun
import proofs.«417617_j45045617001060_1_alg».proof.Proof.KChain
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference is a straight line of whole-array operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the program was restated over the extended reals. -/
theorem preserves : Cert.preserves_Kernel_KernelIdeal := trivial

/-- Both programs end with the reference's last stage of the argument arrays in their result: the program's result
    array holds what the fold of its stretches and regions leaves there, which is that stage; the reference's run
    states it outright; and the two memories agree on the arguments. -/
theorem algebraic : Cert.algebraic_KernelIdeal_ReferenceIdeal := by
  intro m ρ m' ρ' hpre hagree
  refine ⟨fun c => Cert.KernelIdeal.Gen.W11 (F := Ideal) m ρ c (Proc.devRef .tc Cert.KernelIdeal.main_v32),
    Cert.KernelIdeal.KRun.run_val (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, -, h4, h5, h6, h7, h8, h9⟩ := hagree c
  rw [Cert.ReferenceIdeal.Read.val_main_v71_eq, h0, h1, h2, h4, h5, h6, h7, h8, h9]
  exact (Cert.KernelIdeal.Chain.v32_11 m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
